-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v96)) (v1 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_v95) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S262144 : Shape := ⟨1, ![262144]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S8192x256 .f32) (main_arg1 : IVec S262144 32) (main_arg2 : IVec S262144 32) (main_arg3 : FVec F S256x256 .f32) (main_arg4 : FVec F S256 .f32) (main_arg5 : FVec F S256x128 .f32) (main_arg6 : FVec F S128 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_v13 main_v16
-- ==== Kernel.lean ====
abbrev S8192x256 : Shape := ⟨2, ![8192, 256]⟩
abbrev S262144 : Shape := ⟨1, ![262144]⟩
abbrev S256x256 : Shape := ⟨2, ![256, 256]⟩
abbrev S256 : Shape := ⟨1, ![256]⟩
abbrev S256x128 : Shape := ⟨2, ![256, 128]⟩
abbrev S128 : Shape := ⟨1, ![128]⟩
abbrev S5 : Shape := ⟨1, ![5]⟩
abbrev S1x256 : Shape := ⟨2, ![1, 256]⟩
abbrev S1x128 : Shape := ⟨2, ![1, 128]⟩
abbrev S8192x128 : Shape := ⟨2, ![8192, 128]⟩
abbrev S1024x256 : Shape := ⟨2, ![1024, 256]⟩
abbrev S1024x128 : Shape := ⟨2, ![1024, 128]⟩
abbrev S_ : Shape := ⟨0, ![]⟩
abbrev S8192 : Shape := ⟨1, ![8192]⟩
abbrev S262144x1 : Shape := ⟨2, ![262144, 1]⟩
abbrev S8192x1 : Shape := ⟨2, ![8192, 1]⟩
abbrev S1 : Shape := ⟨1, ![1]⟩
abbrev S262144x128 : Shape := ⟨2, ![262144, 128]⟩
abbrev S8192x8192 : Shape := ⟨2, ![8192, 8192]⟩
abbrev S1024x1024 : Shape := ⟨2, ![1024, 1024]⟩

abbrev nBuf : Space → Nat
  | .hbm => 121
  | .vmem => 14
  | .smem => 0
  | _ => 0

abbrev bufTy : (tb : Table) → Fin (tcTables nBuf tb) → BufTy
  | .hbm, ⟨0, _⟩ => ⟨S8192x256, .f32⟩
  | .hbm, ⟨1, _⟩ => ⟨S262144, .i32⟩
  | .hbm, ⟨2, _⟩ => ⟨S262144, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S5, .f32⟩
  | .hbm, ⟨8, _⟩ => ⟨S1x256, .f32⟩
  | .hbm, ⟨9, _⟩ => ⟨S1x128, .f32⟩
  | .hbm, ⟨10, _⟩ => ⟨S8192x128, .f32⟩
  | .hbm, ⟨11, _⟩ => ⟨S_, .f32⟩
  | .hbm, ⟨12, _⟩ => ⟨S262144, .f32⟩
  | .hbm, ⟨13, _⟩ => ⟨S_, .f32⟩
  | .hbm, ⟨14, _⟩ => ⟨S8192, .f32⟩
  | .hbm, ⟨15, _⟩ => ⟨S262144x1, .i32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1, .f32⟩
  | .hbm, ⟨24, _⟩ => ⟨S1, .f32⟩
  | .hbm, ⟨25, _⟩ => ⟨S_, .f32⟩
  | .hbm, ⟨26, _⟩ => ⟨S8192x128, .f32⟩
  | .hbm, ⟨27, _⟩ => ⟨S8192x128, .f32⟩
  | .hbm, ⟨28, _⟩ => ⟨S8192x128, .f32⟩
  | .hbm, ⟨29, _⟩ => ⟨S8192x128, .f32⟩
  | .hbm, ⟨30, _⟩ => ⟨S_, .i32⟩
  | .hbm, ⟨31, _⟩ => ⟨S262144, .i32⟩
  | .hbm, ⟨32, _⟩ => ⟨S262144, .i1⟩
  | .hbm, ⟨33, _⟩ => ⟨S_, .i32⟩
  | .hbm, ⟨34, _⟩ => ⟨S262144, .i32⟩
  | .hbm, ⟨35, _⟩ => ⟨S262144, .i32⟩
  | .hbm, ⟨36, _⟩ => ⟨S262144, .i32⟩
  | .hbm, ⟨37, _⟩ => ⟨S262144x1, .i32⟩
  | .hbm, ⟨38, _⟩ => ⟨S262144x128, .f32⟩
  | .hbm, ⟨39, _⟩ => ⟨S_, .f32⟩
  | .hbm, ⟨40, _⟩ => ⟨S8192x128, .f32⟩
  | .hbm, ⟨41, _⟩ => ⟨S262144x1, .i32⟩
  | .hbm, ⟨42, _⟩ => ⟨S8192x128, .f32⟩
  | .hbm, ⟨43, _⟩ => ⟨S8192x128, .f32⟩
  | .hbm, ⟨44, _⟩ => ⟨S8192x128, .f32⟩
  | .hbm, ⟨45, _⟩ => ⟨S8192x128, .f32⟩
  | .hbm, ⟨46, _⟩ => ⟨S1, .f32⟩
  | .hbm, ⟨47, _⟩ => ⟨S_, .f32⟩
  | .hbm, ⟨48, _⟩ => ⟨S8192x128, .f32⟩
  | .hbm, ⟨49, _⟩ => ⟨S8192x128, .f32⟩
  | .hbm, ⟨50, _⟩ => ⟨S8192x128, .f32⟩
  | .hbm, ⟨51, _⟩ => ⟨S8192x128, .f32⟩
  | .hbm, ⟨52, _⟩ => ⟨S8192x128, .f32⟩
  | .hbm, ⟨53, _⟩ => ⟨S_, .i32⟩
  | .hbm, ⟨54, _⟩ => ⟨S262144, .i32⟩
  | .hbm, ⟨55, _⟩ => ⟨S262144, .i1⟩
  | .hbm, ⟨56, _⟩ => ⟨S_, .i32⟩
  | .hbm, ⟨57, _⟩ => ⟨S262144, .i32⟩
  | .hbm, ⟨58, _⟩ => ⟨S262144, .i32⟩
  | .hbm, ⟨59, _⟩ => ⟨S262144, .i32⟩
  | .hbm, ⟨60, _⟩ => ⟨S262144x1, .i32⟩
  | .hbm, ⟨61, _⟩ => ⟨S262144x128, .f32⟩
  | .hbm, ⟨62, _⟩ => ⟨S_, .f32⟩
  | .hbm, ⟨63, _⟩ => ⟨S8192x128, .f32⟩
  | .hbm, ⟨64, _⟩ => ⟨S262144x1, .i32⟩
  | .hbm, ⟨65, _⟩ => ⟨S8192x128, .f32⟩
  | .hbm, ⟨66, _⟩ => ⟨S8192x128, .f32⟩
  | .hbm, ⟨67, _⟩ => ⟨S8192x128, .f32⟩
  | .hbm, ⟨68, _⟩ => ⟨S8192x128, .f32⟩
  | .hbm, ⟨69, _⟩ => ⟨S1, .f32⟩
  | .hbm, ⟨70, _⟩ => ⟨S_, .f32⟩
  | .hbm, ⟨71, _⟩ => ⟨S8192x128, .f32⟩
  | .hbm, ⟨72, _⟩ => ⟨S8192x128, .f32⟩
  | .hbm, ⟨73, _⟩ => ⟨S8192x128, .f32⟩
  | .hbm, ⟨74, _⟩ => ⟨S8192x128, .f32⟩
  | .hbm, ⟨75, _⟩ => ⟨S8192x128, .f32⟩
  | .hbm, ⟨76, _⟩ => ⟨S_, .i32⟩
  | .hbm, ⟨77, _⟩ => ⟨S262144, .i32⟩
  | .hbm, ⟨78, _⟩ => ⟨S262144, .i1⟩
  | .hbm, ⟨79, _⟩ => ⟨S_, .i32⟩
  | .hbm, ⟨80, _⟩ => ⟨S262144, .i32⟩
  | .hbm, ⟨81, _⟩ => ⟨S262144, .i32⟩
  | .hbm, ⟨82, _⟩ => ⟨S262144, .i32⟩
  | .hbm, ⟨83, _⟩ => ⟨S262144x1, .i32⟩
  | .hbm, ⟨84, _⟩ => ⟨S262144x128, .f32⟩
  | .hbm, ⟨85, _⟩ => ⟨S_, .f32⟩
  | .hbm, ⟨86, _⟩ => ⟨S8192x128, .f32⟩
  | .hbm, ⟨87, _⟩ => ⟨S262144x1, .i32⟩
  | .hbm, ⟨88, _⟩ => ⟨S8192x128, .f32⟩
  | .hbm, ⟨89, _⟩ => ⟨S8192x128, .f32⟩
  | .hbm, ⟨90, _⟩ => ⟨S8192x128, .f32⟩
  | .hbm, ⟨91, _⟩ => ⟨S8192x128, .f32⟩
  | .hbm, ⟨92, _⟩ => ⟨S1, .f32⟩
  | .hbm, ⟨93, _⟩ => ⟨S_, .f32⟩
  | .hbm, ⟨94, _⟩ => ⟨S8192x128, .f32⟩
  | .hbm, ⟨95, _⟩ => ⟨S8192x128, .f32⟩
  | .hbm, ⟨96, _⟩ => ⟨S8192x128, .f32⟩
  | .hbm, ⟨97, _⟩ => ⟨S8192x128, .f32⟩
  | .hbm, ⟨98, _⟩ => ⟨S8192x128, .f32⟩
  | .hbm, ⟨99, _⟩ => ⟨S_, .i32⟩
  | .hbm, ⟨100, _⟩ => ⟨S262144, .i32⟩
  | .hbm, ⟨101, _⟩ => ⟨S262144, .i1⟩
  | .hbm, ⟨102, _⟩ => ⟨S_, .i32⟩
  | .hbm, ⟨103, _⟩ => ⟨S262144, .i32⟩
  | .hbm, ⟨104, _⟩ => ⟨S262144, .i32⟩
  | .hbm, ⟨105, _⟩ => ⟨S262144, .i32⟩
  | .hbm, ⟨106, _⟩ => ⟨S262144x1, .i32⟩
  | .hbm, ⟨107, _⟩ => ⟨S262144x128, .f32⟩
  | .hbm, ⟨108, _⟩ => ⟨S_, .f32⟩
  | .hbm, ⟨109, _⟩ => ⟨S8192x128, .f32⟩
  | .hbm, ⟨110, _⟩ => ⟨S262144x1, .i32⟩
  | .hbm, ⟨111, _⟩ => ⟨S8192x128, .f32⟩
  | .hbm, ⟨112, _⟩ => ⟨S8192x128, .f32⟩
  | .hbm, ⟨113, _⟩ => ⟨S8192x128, .f32⟩
  | .hbm, ⟨114, _⟩ => ⟨S8192x128, .f32⟩
  | .hbm, ⟨115, _⟩ => ⟨S1, .f32⟩
  | .hbm, ⟨116, _⟩ => ⟨S_, .f32⟩
  | .hbm, ⟨117, _⟩ => ⟨S8192x128, .f32⟩
  | .hbm, ⟨118, _⟩ => ⟨S8192x128, .f32⟩
  | .hbm, ⟨119, _⟩ => ⟨S8192x128, .f32⟩
  | .hbm, ⟨120, _⟩ => ⟨S8192x8192, .f32⟩
  | .local _ .vmem, ⟨0, _⟩ => ⟨S1024x256, .f32⟩
  | .local _ .vmem, ⟨1, _⟩ => ⟨S1024x256, .f32⟩
  | .local _ .vmem, ⟨2, _⟩ => ⟨S256x256, .f32⟩
  | .local _ .vmem, ⟨3, _⟩ => ⟨S1x256, .f32⟩
  | .local _ .vmem, ⟨4, _⟩ => ⟨S256x128, .f32⟩
  | .local _ .vmem, ⟨5, _⟩ => ⟨S1x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x1024, .f32⟩
  | .local _ .vmem, ⟨13, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_6 : Ref sig .tc := ⟨.hbm, 53, rfl⟩
abbrev main_v38 : Ref sig .tc := ⟨.hbm, 54, rfl⟩
abbrev main_v39 : Ref sig .tc := ⟨.hbm, 55, rfl⟩
abbrev main_c_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c_9 : Ref sig .tc := ⟨.hbm, 76, rfl⟩
abbrev main_v58 : Ref sig .tc := ⟨.hbm, 77, rfl⟩
abbrev main_v59 : Ref sig .tc := ⟨.hbm, 78, rfl⟩
abbrev main_c_10 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_11 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_c_12 : Ref sig .tc := ⟨.hbm, 99, rfl⟩
abbrev main_v78 : Ref sig .tc := ⟨.hbm, 100, rfl⟩
abbrev main_v79 : Ref sig .tc := ⟨.hbm, 101, rfl⟩
abbrev main_c_13 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_14 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S256_S1x256 : S256.ShapeCasts S1x256
  shapeCasts_S128_S1x128 : S128.ShapeCasts S1x128
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  bcast_S_S262144 : S_.BroadcastsInDim S262144 (![] : Fin 0 → Fin S262144.rank)
  bcast_S_S8192 : S_.BroadcastsInDim S8192 (![] : Fin 0 → Fin S8192.rank)
  bcast_S262144_S262144x1_0 : S262144.BroadcastsInDim S262144x1 (![0] : Fin 1 → Fin S262144x1.rank)
  bcast_S8192_S8192x1_0 : S8192.BroadcastsInDim S8192x1 (![0] : Fin 1 → Fin S8192x1.rank)
  slices_S5_S1_0 : S5.Slices ![0] S1
  shapeCasts_S1_S_ : S1.ShapeCasts S_
  bcast_S_S8192x128 : S_.BroadcastsInDim S8192x128 (![] : Fin 0 → Fin S8192x128.rank)
  bcast_S8192x1_S8192x128_0_1 : S8192x1.BroadcastsInDim S8192x128 (![0, 1] : Fin 2 → Fin S8192x128.rank)
  slices_S5_S1_1 : S5.Slices ![1] S1
  slices_S5_S1_2 : S5.Slices ![2] S1
  slices_S5_S1_3 : S5.Slices ![3] S1
  slices_S5_S1_4 : S5.Slices ![4] S1
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  dot_S1024x256_S256x256_S1024x256_1_0_0_1_n_n_wf : DotDims.WF S1024x256 S256x256 S1024x256 [1] [0] [0] [1] [] []
  dot_S1024x256_S256x128_S1024x128_1_0_0_1_n_n_wf : DotDims.WF S1024x256 S256x128 S1024x128 [1] [0] [0] [1] [] []
  scatter_S8192_S262144x1_S262144_n_0_0_1_wf : ScatterDims.WF S8192 S262144x1 S262144 [] [0] [0] 1
  gather_S8192x128_S262144x1_S262144x128_1_0_n_n_0_1_1128_wf : GatherDims.WF S8192x128 S262144x1 S262144x128 [1] [0] [] [0] [] 1 ![1, 128]
  scatter_S8192x128_S262144x1_S262144x128_1_0_0_1_wf : ScatterDims.WF S8192x128 S262144x1 S262144x128 [1] [0] [0] 1
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S8192x128.size a
  hwx0_5 : ∀ i : grid0.Coords, EltTy.bits .f32 = 32 ∨ (Rect.block (s := S8192x128) S1024x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def scatter_S8192x128_S262144x1_S262144x128_1_0_0_1 : ScatterDims S8192x128 S262144x1 S262144x128 where
  updateWindowDims := [1]
  insertedWindowDims := [0]
  scatterDimsToOperandDims := [0]
  indexVectorDim := 1
  wf := scatter_S8192x128_S262144x1_S262144x128_1_0_0_1_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v95) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v95) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v96) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x256 : Shape := ⟨2, ![8192, 256]⟩
abbrev S262144 : Shape := ⟨1, ![262144]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S8192 : Shape := ⟨1, ![8192]⟩
abbrev S262144x1 : Shape := ⟨2, ![262144, 1]⟩
abbrev S8192x1 : Shape := ⟨2, ![8192, 1]⟩
abbrev S1x256 : Shape := ⟨2, ![1, 256]⟩
abbrev S8192x128 : Shape := ⟨2, ![8192, 128]⟩
abbrev S1x128 : Shape := ⟨2, ![1, 128]⟩
abbrev S262144x128 : Shape := ⟨2, ![262144, 128]⟩
abbrev S128x8192 : Shape := ⟨2, ![128, 8192]⟩
abbrev S8192x8192 : Shape := ⟨2, ![8192, 8192]⟩

abbrev nBuf : Space → Nat
  | .hbm => 127
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S262144, .i32⟩
  | .hbm, ⟨2, _⟩ => ⟨S262144, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S_, .f32⟩
  | .hbm, ⟨8, _⟩ => ⟨S262144, .f32⟩
  | .hbm, ⟨9, _⟩ => ⟨S_, .f32⟩
  | .hbm, ⟨10, _⟩ => ⟨S8192, .f32⟩
  | .hbm, ⟨11, _⟩ => ⟨S262144x1, .i32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S8192x1, .f32⟩
  | .hbm, ⟨20, _⟩ => ⟨S8192x256, .f32⟩
  | .hbm, ⟨21, _⟩ => ⟨S1x256, .f32⟩
  | .hbm, ⟨22, _⟩ => ⟨S8192x256, .f32⟩
  | .hbm, ⟨23, _⟩ => ⟨S8192x256, .f32⟩
  | .hbm, ⟨24, _⟩ => ⟨S_, .f32⟩
  | .hbm, ⟨25, _⟩ => ⟨S8192x256, .f32⟩
  | .hbm, ⟨26, _⟩ => ⟨S8192x256, .f32⟩
  | .hbm, ⟨27, _⟩ => ⟨S8192x128, .f32⟩
  | .hbm, ⟨28, _⟩ => ⟨S1x128, .f32⟩
  | .hbm, ⟨29, _⟩ => ⟨S8192x128, .f32⟩
  | .hbm, ⟨30, _⟩ => ⟨S8192x128, .f32⟩
  | .hbm, ⟨31, _⟩ => ⟨S_, .f32⟩
  | .hbm, ⟨32, _⟩ => ⟨S8192x128, .f32⟩
  | .hbm, ⟨33, _⟩ => ⟨S8192x128, .f32⟩
  | .hbm, ⟨34, _⟩ => ⟨S_, .f32⟩
  | .hbm, ⟨35, _⟩ => ⟨S8192x128, .f32⟩
  | .hbm, ⟨36, _⟩ => ⟨S8192x128, .f32⟩
  | .hbm, ⟨37, _⟩ => ⟨S8192x128, .f32⟩
  | .hbm, ⟨38, _⟩ => ⟨S8192x128, .f32⟩
  | .hbm, ⟨39, _⟩ => ⟨S_, .i32⟩
  | .hbm, ⟨40, _⟩ => ⟨S262144, .i32⟩
  | .hbm, ⟨41, _⟩ => ⟨S262144, .i1⟩
  | .hbm, ⟨42, _⟩ => ⟨S_, .i32⟩
  | .hbm, ⟨43, _⟩ => ⟨S262144, .i32⟩
  | .hbm, ⟨44, _⟩ => ⟨S262144, .i32⟩
  | .hbm, ⟨45, _⟩ => ⟨S262144, .i32⟩
  | .hbm, ⟨46, _⟩ => ⟨S262144x1, .i32⟩
  | .hbm, ⟨47, _⟩ => ⟨S262144x128, .f32⟩
  | .hbm, ⟨48, _⟩ => ⟨S_, .f32⟩
  | .hbm, ⟨49, _⟩ => ⟨S8192x128, .f32⟩
  | .hbm, ⟨50, _⟩ => ⟨S262144x1, .i32⟩
  | .hbm, ⟨51, _⟩ => ⟨S8192x128, .f32⟩
  | .hbm, ⟨52, _⟩ => ⟨S8192x128, .f32⟩
  | .hbm, ⟨53, _⟩ => ⟨S8192x128, .f32⟩
  | .hbm, ⟨54, _⟩ => ⟨S8192x128, .f32⟩
  | .hbm, ⟨55, _⟩ => ⟨S_, .f32⟩
  | .hbm, ⟨56, _⟩ => ⟨S8192x128, .f32⟩
  | .hbm, ⟨57, _⟩ => ⟨S8192x128, .f32⟩
  | .hbm, ⟨58, _⟩ => ⟨S8192x128, .f32⟩
  | .hbm, ⟨59, _⟩ => ⟨S8192x128, .f32⟩
  | .hbm, ⟨60, _⟩ => ⟨S8192x128, .f32⟩
  | .hbm, ⟨61, _⟩ => ⟨S_, .i32⟩
  | .hbm, ⟨62, _⟩ => ⟨S262144, .i32⟩
  | .hbm, ⟨63, _⟩ => ⟨S262144, .i1⟩
  | .hbm, ⟨64, _⟩ => ⟨S_, .i32⟩
  | .hbm, ⟨65, _⟩ => ⟨S262144, .i32⟩
  | .hbm, ⟨66, _⟩ => ⟨S262144, .i32⟩
  | .hbm, ⟨67, _⟩ => ⟨S262144, .i32⟩
  | .hbm, ⟨68, _⟩ => ⟨S262144x1, .i32⟩
  | .hbm, ⟨69, _⟩ => ⟨S262144x128, .f32⟩
  | .hbm, ⟨70, _⟩ => ⟨S_, .f32⟩
  | .hbm, ⟨71, _⟩ => ⟨S8192x128, .f32⟩
  | .hbm, ⟨72, _⟩ => ⟨S262144x1, .i32⟩
  | .hbm, ⟨73, _⟩ => ⟨S8192x128, .f32⟩
  | .hbm, ⟨74, _⟩ => ⟨S8192x128, .f32⟩
  | .hbm, ⟨75, _⟩ => ⟨S8192x128, .f32⟩
  | .hbm, ⟨76, _⟩ => ⟨S8192x128, .f32⟩
  | .hbm, ⟨77, _⟩ => ⟨S_, .f32⟩
  | .hbm, ⟨78, _⟩ => ⟨S8192x128, .f32⟩
  | .hbm, ⟨79, _⟩ => ⟨S8192x128, .f32⟩
  | .hbm, ⟨80, _⟩ => ⟨S8192x128, .f32⟩
  | .hbm, ⟨81, _⟩ => ⟨S8192x128, .f32⟩
  | .hbm, ⟨82, _⟩ => ⟨S8192x128, .f32⟩
  | .hbm, ⟨83, _⟩ => ⟨S_, .i32⟩
  | .hbm, ⟨84, _⟩ => ⟨S262144, .i32⟩
  | .hbm, ⟨85, _⟩ => ⟨S262144, .i1⟩
  | .hbm, ⟨86, _⟩ => ⟨S_, .i32⟩
  | .hbm, ⟨87, _⟩ => ⟨S262144, .i32⟩
  | .hbm, ⟨88, _⟩ => ⟨S262144, .i32⟩
  | .hbm, ⟨89, _⟩ => ⟨S262144, .i32⟩
  | .hbm, ⟨90, _⟩ => ⟨S262144x1, .i32⟩
  | .hbm, ⟨91, _⟩ => ⟨S262144x128, .f32⟩
  | .hbm, ⟨92, _⟩ => ⟨S_, .f32⟩
  | .hbm, ⟨93, _⟩ => ⟨S8192x128, .f32⟩
  | .hbm, ⟨94, _⟩ => ⟨S262144x1, .i32⟩
  | .hbm, ⟨95, _⟩ => ⟨S8192x128, .f32⟩
  | .hbm, ⟨96, _⟩ => ⟨S8192x128, .f32⟩
  | .hbm, ⟨97, _⟩ => ⟨S8192x128, .f32⟩
  | .hbm, ⟨98, _⟩ => ⟨S8192x128, .f32⟩
  | .hbm, ⟨99, _⟩ => ⟨S_, .f32⟩
  | .hbm, ⟨100, _⟩ => ⟨S8192x128, .f32⟩
  | .hbm, ⟨101, _⟩ => ⟨S8192x128, .f32⟩
  | .hbm, ⟨102, _⟩ => ⟨S8192x128, .f32⟩
  | .hbm, ⟨103, _⟩ => ⟨S8192x128, .f32⟩
  | .hbm, ⟨104, _⟩ => ⟨S8192x128, .f32⟩
  | .hbm, ⟨105, _⟩ => ⟨S_, .i32⟩
  | .hbm, ⟨106, _⟩ => ⟨S262144, .i32⟩
  | .hbm, ⟨107, _⟩ => ⟨S262144, .i1⟩
  | .hbm, ⟨108, _⟩ => ⟨S_, .i32⟩
  | .hbm, ⟨109, _⟩ => ⟨S262144, .i32⟩
  | .hbm, ⟨110, _⟩ => ⟨S262144, .i32⟩
  | .hbm, ⟨111, _⟩ => ⟨S262144, .i32⟩
  | .hbm, ⟨112, _⟩ => ⟨S262144x1, .i32⟩
  | .hbm, ⟨113, _⟩ => ⟨S262144x128, .f32⟩
  | .hbm, ⟨114, _⟩ => ⟨S_, .f32⟩
  | .hbm, ⟨115, _⟩ => ⟨S8192x128, .f32⟩
  | .hbm, ⟨116, _⟩ => ⟨S262144x1, .i32⟩
  | .hbm, ⟨117, _⟩ => ⟨S8192x128, .f32⟩
  | .hbm, ⟨118, _⟩ => ⟨S8192x128, .f32⟩
  | .hbm, ⟨119, _⟩ => ⟨S8192x128, .f32⟩
  | .hbm, ⟨120, _⟩ => ⟨S8192x128, .f32⟩
  | .hbm, ⟨121, _⟩ => ⟨S_, .f32⟩
  | .hbm, ⟨122, _⟩ => ⟨S8192x128, .f32⟩
  | .hbm, ⟨123, _⟩ => ⟨S8192x128, .f32⟩
  | .hbm, ⟨124, _⟩ => ⟨S8192x128, .f32⟩
  | .hbm, ⟨125, _⟩ => ⟨S128x8192, .f32⟩
  | .hbm, ⟨126, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call0_cst : Ref sig .tc := ⟨.hbm, 24, rfl⟩
abbrev main_call0_v0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call1_cst : Ref sig .tc := ⟨.hbm, 31, rfl⟩
abbrev main_call1_v0 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_7 : Ref sig .tc := ⟨.hbm, 61, rfl⟩
abbrev main_v41 : Ref sig .tc := ⟨.hbm, 62, rfl⟩
abbrev main_v42 : Ref sig .tc := ⟨.hbm, 63, rfl⟩
abbrev main_c_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_11 : Ref sig .tc := ⟨.hbm, 83, rfl⟩
abbrev main_v59 : Ref sig .tc := ⟨.hbm, 84, rfl⟩
abbrev main_v60 : Ref sig .tc := ⟨.hbm, 85, rfl⟩
abbrev main_c_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_14 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_c_15 : Ref sig .tc := ⟨.hbm, 105, rfl⟩
abbrev main_v77 : Ref sig .tc := ⟨.hbm, 106, rfl⟩
abbrev main_v78 : Ref sig .tc := ⟨.hbm, 107, rfl⟩
abbrev main_c_16 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_17 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_18 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S_S8192 : S_.BroadcastsInDim S8192 (![] : Fin 0 → Fin S8192.rank)
  bcast_S262144_S262144x1_0 : S262144.BroadcastsInDim S262144x1 (![0] : Fin 1 → Fin S262144x1.rank)
  bcast_S8192_S8192x1_0 : S8192.BroadcastsInDim S8192x1 (![0] : Fin 1 → Fin S8192x1.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S8192x1_S8192x128_0_1 : S8192x1.BroadcastsInDim S8192x128 (![0, 1] : Fin 2 → Fin S8192x128.rank)
  transposes_S8192x128_S128x8192_1_0 : S8192x128.Transposes [1, 0] S128x8192
  scatter_S8192_S262144x1_S262144_n_0_0_1_wf : ScatterDims.WF S8192 S262144x1 S262144 [] [0] [0] 1
  dot_S8192x256_S256x256_S8192x256_1_0_0_1_n_n_wf : DotDims.WF S8192x256 S256x256 S8192x256 [1] [0] [0] [1] [] []
  dot_S8192x256_S256x128_S8192x128_1_0_0_1_n_n_wf : DotDims.WF S8192x256 S256x128 S8192x128 [1] [0] [0] [1] [] []
  gather_S8192x128_S262144x1_S262144x128_1_0_n_n_0_1_1128_wf : GatherDims.WF S8192x128 S262144x1 S262144x128 [1] [0] [] [0] [] 1 ![1, 128]
  scatter_S8192x128_S262144x1_S262144x128_1_0_0_1_wf : ScatterDims.WF S8192x128 S262144x1 S262144x128 [1] [0] [0] 1
  dot_S8192x128_S128x8192_S8192x8192_1_0_0_1_n_n_wf : DotDims.WF S8192x128 S128x8192 S8192x8192 [1] [0] [0] [1] [] []

variable [Facts₀]

def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def scatter_S8192x128_S262144x1_S262144x128_1_0_0_1 : ScatterDims S8192x128 S262144x1 S262144x128 where
  updateWindowDims := [1]
  insertedWindowDims := [0]
  scatterDimsToOperandDims := [0]
  indexVectorDim := 1
  wf := scatter_S8192x128_S262144x1_S262144x128_1_0_0_1_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.Mlp.lean ====
/-
  Region 0 of @main: the encoder kernel (two matrix products with bias and a clamp at zero, one block of 1024 rows
  per grid point), at a PARAMETER `V`, the TensorCore's buffer contents when the region is entered.
  Each input window's staging buffer holds that window's block of its array at every point (the four weight and bias
  windows are fetched once and their block index never moves); the body stores one whole block, the payload of the
  five loaded blocks. So the proof data name, per point, each input's block and the output's payload of them, and the
  body obligation is the body's triple at those blocks.
-/
import proofs.«122711_j214748365383_1_alg».proof.Proof.Gen.Kernel.Launch
import proofs.«122711_j214748365383_1_alg».proof.Proof.Gen.Kernel.Skeleton
import proofs.«122711_j214748365383_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rIn0_0 : Rect S1024x256 := Rect.unit (s := S1024x256) ![0, 0] S1024x256.size inb_S1024x256_S1024x256_0_0
abbrev rIn0_1 : Rect S256x256 := Rect.unit (s := S256x256) ![0, 0] S256x256.size inb_S256x256_S256x256_0_0
abbrev rIn0_2 : Rect S1x256 := Rect.unit (s := S1x256) ![0, 0] S1x256.size inb_S1x256_S1x256_0_0
abbrev rIn0_3 : Rect S256x128 := Rect.unit (s := S256x128) ![0, 0] S256x128.size inb_S256x128_S256x128_0_0
abbrev rIn0_4 : Rect S1x128 := Rect.unit (s := S1x128) ![0, 0] S1x128.size inb_S1x128_S1x128_0_0
/-- The whole-block rectangle of the output's staging buffer. -/
abbrev rOut0 : Rect S1024x128 := Rect.unit (s := S1024x128) ![0, 0] S1024x128.size inb_S1024x128_S1024x128_0_0

/-- What the body leaves in the output window's staging buffer: its one store, of the payload of the five loaded blocks. -/
def out0 (x0 : Vec F S1024x256 .f32) (x1 : Vec F S256x256 .f32) (x2 : Vec F S1x256 .f32) (x3 : Vec F S256x128 .f32) (x4 : Vec F S1x128 .f32) :
    Vec F S1024x128 .f32 :=
  View.canon [⟨rOut0, k0_pay1 (View.ld x0 rIn0_0) (View.ld x1 rIn0_1) (View.ld x2 rIn0_2) (View.ld x3 rIn0_3) (View.ld x4 rIn0_4)⟩]

/-- The one store is of the whole block, so it covers it. -/
theorem cover0 (p0 : Vec F S1024x128 .f32) (y : S1024x128.Idx) :
    ∃ pc ∈ ([⟨rOut0, p0⟩] : List (View.Piece (Elt F) S1024x128 .f32)), y ∈ pc.1.set :=
  View.cover_of_tiled [⟨rOut0, p0⟩] S1024x128.size (by rfl) y

set_option maxHeartbeats 1000000 in
/-- The body on whole staging memrefs, the five inputs' at contents `x0 … x4` and the output's at anything, runs to the
    continuation with the inputs' untouched and the output's at `out0` of them. -/
theorem run_body0 (c : Dev nD) (E : Set ℕ) (i : grid0.Coords)
    (arg1 : Memref sig .tc .vmem S1024x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S1024x128 .f32) (harg6 : arg6.IsWhole)
    (x0 : Vec F S1024x256 .f32) (x1 : Vec F S256x256 .f32) (x2 : Vec F S1x256 .f32) (x3 : Vec F S256x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0 _)

/-- The proof data of the encoder's pipeline on core `c`: the arrays as the region finds them; after the body at point
    `t` each input's buffer at its block and the output's at the payload of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => out0 (blk0 V c 0 t) (blk0 V c 1 t) (blk0 V c 2 t) (blk0 V c 3 t) (blk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) :
    (dat0 V c).after 5 t = out0 (blk0 V c 0 t) (blk0 V c 1 t) (blk0 V c 2 t) (blk0 V c 3 t) (blk0 V c 4 t) := by dsimp only [dat0]

/-- Input window 0's current staging buffer holds its block at every point, fetched there or not. -/
theorem before0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [A_eq0]; try rfl) t d).trans
    (by unfold Dat.fetched Dat.blockOf blk0; rw [A_eq0]; try rfl)
/-- Input window 1's current staging buffer holds its block at every point, fetched there or not. -/
theorem before0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rw [A_eq0]; try rfl) t d).trans
    (by unfold Dat.fetched Dat.blockOf blk0; rw [A_eq0]; try rfl)
/-- Input window 2's current staging buffer holds its block at every point, fetched there or not. -/
theorem before0_2 (c : Dev nD) (t : Fin cfg0.N) (d) : (dat0 V c).before 2 t d = blk0 V c 2 t :=
  ((dat0 V c).before_in_eq_fetched 2 rfl (fun _ => rfl) (fun _ _ _ => rfl)
    (fun t => by rw [after0_2]; unfold Dat.blockOf blk0; rw [A_eq0]; try rfl) t d).trans
    (by unfold Dat.fetched Dat.blockOf blk0; rw [A_eq0]; try rfl)
/-- Input window 3's current staging buffer holds its block at every point, fetched there or not. -/
theorem before0_3 (c : Dev nD) (t : Fin cfg0.N) (d) : (dat0 V c).before 3 t d = blk0 V c 3 t :=
  ((dat0 V c).before_in_eq_fetched 3 rfl (fun _ => rfl) (fun _ _ _ => rfl)
    (fun t => by rw [after0_3]; unfold Dat.blockOf blk0; rw [A_eq0]; try rfl) t d).trans
    (by unfold Dat.fetched Dat.blockOf blk0; rw [A_eq0]; try rfl)
/-- Input window 4's current staging buffer holds its block at every point, fetched there or not. -/
theorem before0_4 (c : Dev nD) (t : Fin cfg0.N) (d) : (dat0 V c).before 4 t d = blk0 V c 4 t :=
  ((dat0 V c).before_in_eq_fetched 4 rfl (fun _ => rfl) (fun _ _ _ => rfl)
    (fun t => by rw [after0_4]; unfold Dat.blockOf blk0; rw [A_eq0]; try rfl) t d).trans
    (by unfold Dat.fetched Dat.blockOf blk0; rw [A_eq0]; try rfl)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `run_body0` applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (run_body0 c Set.univ _ _ _ _ _ _ _ _ _ _ _ _ _ (blk0 V c 0 t) (blk0 V c 1 t) (blk0 V c 2 t) (blk0 V c 3 t) (blk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Aat.lean ====
/-
  Region 1 of @main: the self-similarity kernel (one 1024 × 1024 block of the product of a row block with the
  transpose of another row block per grid point, the contraction over all 128 columns inside the block), at a
  PARAMETER `V`, the TensorCore's buffer contents when the region is entered.
  Both input windows read ONE array (the same matrix is handed in twice), so the proof data hold it at the two halves
  of the full share, one per window; the output window holds its own array whole.
-/
import proofs.«122711_j214748365383_1_alg».proof.Proof.Gen.Kernel.Launch
import proofs.«122711_j214748365383_1_alg».proof.Proof.Gen.Kernel.Skeleton
import proofs.«122711_j214748365383_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rIn1 : Rect S1024x128 := Rect.unit (s := S1024x128) ![0, 0] S1024x128.size inb_S1024x128_S1024x128_0_0
/-- The whole-block rectangle of the output's staging buffer. -/
abbrev rOut1 : Rect S1024x1024 := Rect.unit (s := S1024x1024) ![0, 0] S1024x1024.size inb_S1024x1024_S1024x1024_0_0

/-- What the body leaves in the output window's staging buffer: its one store, of the payload of the two loaded blocks. -/
def out1 (x0 x1 : Vec F S1024x128 .f32) : Vec F S1024x1024 .f32 :=
  View.canon [⟨rOut1, k1_pay1 (View.ld x0 rIn1) (View.ld x1 rIn1)⟩]

/-- The one store is of the whole block, so it covers it. -/
theorem cover1 (p0 : Vec F S1024x1024 .f32) (y : S1024x1024.Idx) :
    ∃ pc ∈ ([⟨rOut1, p0⟩] : List (View.Piece (Elt F) S1024x1024 .f32)), y ∈ pc.1.set :=
  View.cover_of_tiled [⟨rOut1, p0⟩] S1024x1024.size (by rfl) y

set_option maxHeartbeats 1000000 in
/-- The body on whole staging memrefs, the two inputs' at contents `x0`, `x1` and the output's at anything, runs to the
    continuation with the inputs' untouched and the output's at `out1` of them. -/
theorem run_body1 (c : Dev nD) (E : Set ℕ) (i : grid1.Coords)
    (arg2 : Memref sig .tc .vmem S1024x128 .f32) (harg2 : arg2.IsWhole) (arg3 : Memref sig .tc .vmem S1024x128 .f32) (harg3 : arg3.IsWhole)
    (arg4 : Memref sig .tc .vmem S1024x1024 .f32) (harg4 : arg4.IsWhole)
    (x0 x1 : Vec F S1024x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1 x0 x1)) -∗ K ⟨⟩))
      ⊢ wp frame (wpE (defs₀ (F := F)) Variants.none c none) E (cc1__aat_kernel i arg2 harg2 arg3 harg3 arg4 harg4) K := by
  simp only [cc1__aat_kernel_eq_skeleton]; unfold cc1__aat_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-- The proof data of the self-similarity pipeline on core `c`: the arrays as the region finds them; after the body at
    point `t` each input's buffer at its block and the output's at the payload of the two input blocks; the invariant
    the scoped rest and the generator register, untouched; nothing owed; the shared input array held at the left half of
    the full share by window 0 and at the right half by window 1. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => out1 (blk1 V c 0 t) (blk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem q1_0 (c : Dev nD) : (dat1 V c).q 0 = fullShare.left := by dsimp only [dat1]
theorem q1_1 (c : Dev nD) : (dat1 V c).q 1 = fullShare.right := by dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = out1 (blk1 V c 0 t) (blk1 V c 1 t) := by dsimp only [dat1]

/-- Input window 0's current staging buffer holds its block at every point, fetched there or not. -/
theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [A_eq1]; try rfl) t d).trans
    (by unfold Dat.fetched Dat.blockOf blk1; rw [A_eq1]; try rfl)
/-- Input window 1's current staging buffer holds its block at every point, fetched there or not. -/
theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [A_eq1]; try rfl) t d).trans
    (by unfold Dat.fetched Dat.blockOf blk1; rw [A_eq1]; try rfl)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `run_body1` applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (run_body1 c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Shared.lean ====
/-
  One array under two windows: the share bookkeeping of the second pipeline's entry and exit.

  The second pipeline of the program reads one array, `main_v95` (f32[8192,128]), through BOTH of its input
  windows, and writes `main_v96` (f32[8192,8192]) through its output window. A pipeline holds each input array at
  the share its proof data name and each output array at the full share, one points-to per WINDOW; the core, between
  pipelines, holds each unscoped buffer once, whole, at the full share. The two pictures agree because a points-to
  divides along its share: the full share is the join of its left and right halves, so

      main_v95 ↦{full} f   ⊣⊢   main_v95 ↦{left} f  ∗  main_v95 ↦{right} f.

  Hence, when the proof data hold window 0's array at the left half and window 1's at the right half:

    * ENTRY. The core's unscoped buffers at a valuation are the two DISTINCT buffers behind the windows' arrays and
      the rest; the buffer `main_v95` is divided into its halves, one per input window, and `main_v96` goes whole to
      the output window — the pipeline's arrays at their entry contents.
    * EXIT. Conversely the pipeline's arrays at what it leaves — the two halves of `main_v95` at ONE contents, since
      both are what the final valuation has there — join into the whole buffer, and with `main_v96` and the
      untouched rest they are the core's unscoped buffers at the final valuation.

  Every window's array is a whole buffer, so a points-to over the array's index set is one over the whole buffer.
-/
import proofs.«122711_j214748365383_1_alg».proof.Proof.Gen.Kernel.Launch
import proofs.«122711_j214748365383_1_alg».proof.Proof.Gen.Kernel.Skeleton
import proofs.«122711_j214748365383_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers behind the three windows' arrays are two. -/
theorem arrRefs1 : Finset.univ.image (Pipeline.arrRef spec1) = ({main_v95, main_v96} : Finset (Ref sig .tc)) := by decide

/-- A core's unscoped buffers at contents `V` are those two buffers, each whole at the full share at `V`, and the rest. -/
theorem unscopedBufs1_split (c : Dev nD) (V : (b : Ref sig .tc) → Buf (Elt F) ((c.tc : Thread nD τ).loc b)) :
    (unscopedBufs (Ix := Unit) (Name := ℕ) (U := UR sig nD τ) (Lvl := ℕ) c V : sProp 𝕄)
      = iprop(((((c.tc : Thread nD τ).loc main_v95) ↦{fullShare} V main_v95) ∗ (((c.tc : Thread nD τ).loc main_v96) ↦{fullShare} V main_v96))
          ∗ Pipeline.unscopedRest (Ix := Unit) (Name := ℕ) (U := UR sig nD τ) (Lvl := ℕ) spec1 c V) := by
  classical
  have hA : ({main_v95, main_v96} : Finset (Ref sig .tc)) ⊆ Finset.univ.filter fun b : Ref sig .tc => ¬ b.isScoped := by decide
  unfold unscopedBufs Pipeline.unscopedRest
  rw [arrRefs1, bigSep_sdiff_split hA, bigSep_insert (by decide), bigSep_singleton]
  rfl

/-- Window 0's array, a whole buffer held at the left half share, is `main_v95` at that share. -/
theorem pt0 (c : Dev nD) (dat : Dat τ (Elt F) Unit ℕ (UR sig nD τ) ℕ cfg1 c)
    (hq : dat.q 0 = fullShare.left)
    (G : (w : Fin cfg1.W) → Buf (Elt F) ((cfg1.win w).arr.view.loc (c.tc : Thread nD τ))) :
    (((cfg1.win 0).arr.view.loc (c.tc : Thread nD τ)) ↦[(cfg1.win 0).arr.view.set]{dat.share 0} G 0 : sProp 𝕄)
      = (((c.tc : Thread nD τ).loc main_v95) ↦{fullShare.left} G 0) := by
  have hs : dat.share 0 = fullShare.left := (show dat.share 0 = dat.q 0 from rfl).trans hq
  have e : (cfg1.win 0).arr.view.set = Finset.univ := (arr_whole1 0).set_eq_univ
  rw [hs, e]

/-- Window 1's array, a whole buffer held at the right half share, is `main_v95` at that share. -/
theorem pt1 (c : Dev nD) (dat : Dat τ (Elt F) Unit ℕ (UR sig nD τ) ℕ cfg1 c)
    (hq : dat.q 1 = fullShare.right)
    (G : (w : Fin cfg1.W) → Buf (Elt F) ((cfg1.win w).arr.view.loc (c.tc : Thread nD τ))) :
    (((cfg1.win 1).arr.view.loc (c.tc : Thread nD τ)) ↦[(cfg1.win 1).arr.view.set]{dat.share 1} G 1 : sProp 𝕄)
      = (((c.tc : Thread nD τ).loc main_v95) ↦{fullShare.right} G 1) := by
  have hs : dat.share 1 = fullShare.right := (show dat.share 1 = dat.q 1 from rfl).trans hq
  have e : (cfg1.win 1).arr.view.set = Finset.univ := (arr_whole1 1).set_eq_univ
  rw [hs, e]

/-- The output window's array, a whole buffer held at the full share, is `main_v96` at the full share. -/
theorem pt2 (c : Dev nD) (dat : Dat τ (Elt F) Unit ℕ (UR sig nD τ) ℕ cfg1 c)
    (G : (w : Fin cfg1.W) → Buf (Elt F) ((cfg1.win w).arr.view.loc (c.tc : Thread nD τ))) :
    (((cfg1.win 2).arr.view.loc (c.tc : Thread nD τ)) ↦[(cfg1.win 2).arr.view.set]{dat.share 2} G 2 : sProp 𝕄)
      = (((c.tc : Thread nD τ).loc main_v96) ↦{fullShare} G 2) := by
  have hs : dat.share 2 = fullShare := rfl
  have e : (cfg1.win 2).arr.view.set = Finset.univ := (arr_whole1 2).set_eq_univ
  rw [hs, e]

/-- The pipeline's arrays at contents `G`, window by window: `main_v95` at its left half at `G 0` and at its right half at `G 1`, and `main_v96` whole at `G 2`. -/
theorem arrays1_eq (c : Dev nD) (dat : Dat τ (Elt F) Unit ℕ (UR sig nD τ) ℕ cfg1 c)
    (hq0 : dat.q 0 = fullShare.left) (hq1 : dat.q 1 = fullShare.right)
    (G : (w : Fin cfg1.W) → Buf (Elt F) ((cfg1.win w).arr.view.loc (c.tc : Thread nD τ))) :
    (dat.arrays G : sProp 𝕄)
      = iprop((((c.tc : Thread nD τ).loc main_v95) ↦{fullShare.left} G 0) ∗ (((c.tc : Thread nD τ).loc main_v95) ↦{fullShare.right} G 1)
          ∗ (((c.tc : Thread nD τ).loc main_v96) ↦{fullShare} G 2)) := by
  unfold Dat.arrays
  rw [bigSep_W1]
  exact congrArg₂ _ (pt0 c dat hq0 G) (congrArg₂ _ (pt1 c dat hq1 G) (pt2 c dat G))

/-- ENTRY: the core's unscoped buffers at contents `Wv` are the pipeline's arrays at the proof data's entry contents — the shared input array split into its two half shares — and the unscoped rest. -/
theorem arrays1_of_held (c : Dev nD) (dat : Dat τ (Elt F) Unit ℕ (UR sig nD τ) ℕ cfg1 c)
    (hq0 : dat.q 0 = fullShare.left) (hq1 : dat.q 1 = fullShare.right)
    (Wv : Valuation τ sig (Elt F)) (hA : ∀ w, dat.A w = Wv (Proc.devRef .tc (Pipeline.arrRef spec1 w))) :
    (StableHlo.held (c : Thread nD τ) (Pipeline.ucRefs τ sig) Wv : sProp 𝕄)
      ⊢ iprop(dat.arrays (dat.arrAt · 0) ∗ Pipeline.unscopedRest (Ix := Unit) (Name := ℕ) (U := UR sig nD τ) (Lvl := ℕ) spec1 c (fun b => Wv (Proc.devRef .tc b))) := by
  rw [← Pipeline.unscopedBufs_held (Ix := Unit) (Name := ℕ) (U := UR sig nD τ) (Lvl := ℕ) c Wv]
  rw [unscopedBufs1_split, arrays1_eq c dat hq0 hq1]
  have h0 : dat.arrAt 0 0 = Wv (Proc.devRef .tc main_v95) := hA 0
  have h1 : dat.arrAt 1 0 = Wv (Proc.devRef .tc main_v95) := hA 1
  have h2 : dat.arrAt 2 0 = Wv (Proc.devRef .tc main_v96) := hA 2
  rw [h0, h1, h2]
  refine sep_mono ?_ .rfl
  refine (sep_mono (pointsTo_share (PosShare.mem_left_op_right fullShare)).1 .rfl).trans ?_
  iintro ⟨⟨H1, H2⟩, H3⟩
  isplitl [H1]; · iexact H1
  isplitl [H2]; · iexact H2
  iexact H3

/-- EXIT: the arrays at what the pipeline leaves (`arrAt · N`) and the unscoped rest are the core's unscoped buffers at contents `Wv'`, when `Wv'` has each array at what the pipeline leaves and every other buffer as at entry. -/
theorem held_of_arrays1 (c : Dev nD) (dat : Dat τ (Elt F) Unit ℕ (UR sig nD τ) ℕ cfg1 c)
    (hq0 : dat.q 0 = fullShare.left) (hq1 : dat.q 1 = fullShare.right)
    (Wv Wv' : Valuation τ sig (Elt F))
    (hF : ∀ w, dat.arrAt w cfg1.N = Wv' (Proc.devRef .tc (Pipeline.arrRef spec1 w)))
    (hrest : ∀ b : Ref sig .tc, b ∉ Finset.univ.image (Pipeline.arrRef spec1) → Wv' (Proc.devRef .tc b) = Wv (Proc.devRef .tc b)) :
    iprop(dat.arrays (dat.arrAt · cfg1.N) ∗ Pipeline.unscopedRest (Ix := Unit) (Name := ℕ) (U := UR sig nD τ) (Lvl := ℕ) spec1 c (fun b => Wv (Proc.devRef .tc b)))
      ⊢ (StableHlo.held (c : Thread nD τ) (Pipeline.ucRefs τ sig) Wv' : sProp 𝕄) := by
  rw [← Pipeline.unscopedBufs_held (Ix := Unit) (Name := ℕ) (U := UR sig nD τ) (Lvl := ℕ) c Wv']
  rw [unscopedBufs1_split, arrays1_eq c dat hq0 hq1]
  have h0 : dat.arrAt 0 cfg1.N = Wv' (Proc.devRef .tc main_v95) := hF 0
  have h1 : dat.arrAt 1 cfg1.N = Wv' (Proc.devRef .tc main_v95) := hF 1
  have h2 : dat.arrAt 2 cfg1.N = Wv' (Proc.devRef .tc main_v96) := hF 2
  rw [h0, h1, h2]
  refine sep_mono ?_ (Entails.of_eq ?_)
  · refine BIBase.Entails.trans ?_ (sep_mono (pointsTo_share (PosShare.mem_left_op_right fullShare)).2 .rfl)
    iintro ⟨H1, H2, H3⟩
    isplitr [H3]
    · isplitl [H1]; · iexact H1
      iexact H2
    iexact H3
  · unfold Pipeline.unscopedRest
    exact bigSep_congr fun b hb => by beta_reduce; rw [hrest b (Finset.mem_sdiff.mp hb).2]

end Cert.Kernel.Hand
-- ==== Proof.K.Run.lean ====
/-
  The run of @main: three stretches of host operations and the two kernel regions, in order
  (host, encoder region, host, host, self-similarity region — the long stretch between the regions is cut in two).
  The buffer contents at each boundary are a fold from the launch memory: a host stretch's operations applied
  (`StableHlo.after`), the encoder region's arrays at what its write-backs leave, the self-similarity region's
  output array at what its write-backs leave and its (shared) input array as entered. Every pipeline's proof data
  stand at their region's entry contents; the thread state that rides through the segments is "every unscoped buffer at
  the boundary's contents, the generator register at some state, nothing owed". The launch then says: every weakly
  fair execution terminates, faulting nowhere, with every unscoped buffer at the last boundary's contents.
-/
import proofs.«122711_j214748365383_1_alg».proof.Proof.K.Mlp
import proofs.«122711_j214748365383_1_alg».proof.Proof.K.Aat
import proofs.«122711_j214748365383_1_alg».proof.Proof.K.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the encoder region's entry). -/
abbrev W1 : Dev nD → Valuation τ sig (Elt F) := fun c => StableHlo.after main_part0_ops0 (W0 m ρ c)
abbrev V1 : (c : Dev nD) → (b : Ref sig .tc) → Buf (Elt F) ((c : Thread nD τ).loc b) := fun c b => W1 m ρ c (Proc.devRef .tc b)
/-- At the encoder region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c (Proc.devRef .tc b)
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch, -/
abbrev W3 : Dev nD → Valuation τ sig (Elt F) := fun c => StableHlo.after main_part0_ops1 (W2 m ρ c)
/-- and after the third (the self-similarity region's entry). -/
abbrev W4 : Dev nD → Valuation τ sig (Elt F) := fun c => StableHlo.after main_part1_ops0 (W3 m ρ c)
abbrev V4 : (c : Dev nD) → (b : Ref sig .tc) → Buf (Elt F) ((c : Thread nD τ).loc b) := fun c b => W4 m ρ c (Proc.devRef .tc b)
/-- At the self-similarity region's exit: its output array at what the pipeline leaves, every other buffer (its input
    array among them: the region only reads it) as entered. -/
def W5 (c : Dev nD) : Valuation τ sig (Elt F) := fun b =>
  if h : Proc.devRef .tc main_v96 = b then
    cast (congrArg (fun b' : DevRef τ sig => b'.ty.Contents (Elt F)) h) ((dat1 (V4 m ρ) c).arrAt 2 cfg1.N)
  else W4 m ρ c b
theorem W5_out (c : Dev nD) : W5 m ρ c (Proc.devRef .tc main_v96) = (dat1 (V4 m ρ) c).arrAt 2 cfg1.N := by
  unfold W5; rw [dif_pos rfl]; rfl
theorem W5_of_ne (c : Dev nD) (b : Ref sig .tc) (hb : main_v96 ≠ b) :
    W5 m ρ c (Proc.devRef .tc b) = W4 m ρ c (Proc.devRef .tc b) := by
  unfold W5; rw [dif_neg]; exact fun e => hb (Proc.devRef_injective _ e)
/-- Each of the region's three windows ends holding what the last boundary's contents say: the two input windows the
    shared array as entered, the output window its write-backs folded. -/
theorem hF1 (c : Dev nD) (w : Fin cfg1.W) : (dat1 (V4 m ρ) c).arrAt w cfg1.N = W5 m ρ c (Proc.devRef .tc (Pipeline.arrRef spec1 w)) := by
  match w with
  | ⟨0, _⟩ => exact (((dat1 (V4 m ρ) c).arrAt_in 0 rfl _).trans (A_eq1 (V4 m ρ) c 0)).trans (W5_of_ne m ρ c main_v95 (by decide)).symm
  | ⟨1, _⟩ => exact (((dat1 (V4 m ρ) c).arrAt_in 1 rfl _).trans (A_eq1 (V4 m ρ) c 1)).trans (W5_of_ne m ρ c main_v95 (by decide)).symm
  | ⟨2, _⟩ => exact (W5_out m ρ c).symm
theorem hrest1 (c : Dev nD) : ∀ b : Ref sig .tc, b ∉ Finset.univ.image (Pipeline.arrRef spec1) → W5 m ρ c (Proc.devRef .tc b) = W4 m ρ c (Proc.devRef .tc b) :=
  fun b hb => W5_of_ne m ρ c b fun e => hb (Finset.mem_image.mpr ⟨2, Finset.mem_univ _, e⟩)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (main_part0_ops0 : List (HloOp τ sig (Elt F))).Forall fun op => op.fresh = ∅ := by
  simp only [List.Forall]; repeat' constructor
set_option maxHeartbeats 4000000 in
theorem ops1_fresh : (main_part0_ops1 : List (HloOp τ sig (Elt F))).Forall fun op => op.fresh = ∅ := by
  simp only [List.Forall]; repeat' constructor
set_option maxHeartbeats 4000000 in
theorem ops2_fresh : (main_part1_ops0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The encoder region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The self-similarity region over the thread state: entered from every unscoped buffer at `W4`, left at `W5`. Its
    two input windows share one array, split along the share at entry and joined at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := arrays1_of_held (F := F) c (pdats m ρ 1 c) (q1_0 (V4 m ρ) c) (q1_1 (V4 m ρ) c) (W4 m ρ c) fun _ => rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := held_of_arrays1 (F := F) c (pdats m ρ 1 c) (q1_0 (V4 m ρ) c) (q1_1 (V4 m ρ) c) (W4 m ρ c) (W5 m ρ c) (hF1 m ρ c) (hrest1 m ρ c)
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 5 segments in order. -/
abbrev segs : List (Pipeline.Seg (pcfgs (F := F)) adm (pdats m ρ) () defs₀ 𝒱₀ L lv) :=
  [ .host (hseg main_part0_ops0 main_part0_ops0_sub ops0_fresh (W0 m ρ)),
    .region (reg0 m ρ),
    .host (hseg main_part0_ops1 main_part0_ops1_sub ops1_fresh (W2 m ρ)),
    .host (hseg main_part1_ops0 main_part1_ops0_sub ops2_fresh (W3 m ρ)),
    .region (reg1 m ρ) ]
/-- @main IS the run of the segments. -/
theorem main_run (c : Dev nD) : main (F := F) c = Pipeline.Seg.run (segs m ρ) := (main_chain_windows c).trans (by chain_rfl)

set_option backward.isDefEq.respectTransparency.types false in
/-- THE RUN: from any memory with zero counters every weakly fair execution of @main on the TensorCores terminates,
    nothing faulting, and every final state has each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Hand

end
-- ==== Proof.K.Args.lean ====
/-
  The argument arrays end as launched: no host operation writes one, the encoder region reads three of them through
  input windows (an input window's array ends as entered) and bypasses the others, the self-similarity region touches
  none. So the fold of contents through @main, read at an argument's buffer, walks back to the launch memory, boundary
  by boundary.
-/
import proofs.«122711_j214748365383_1_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W1_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg0) = W0 m ρ c (Proc.devRef .tc main_arg0)).trans rfl
theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0)) :
    W2 m ρ c (Proc.devRef .tc main_arg0) = W1 m ρ c (Proc.devRef .tc main_arg0)).trans (W1_arg0 m ρ c)
set_option maxHeartbeats 4000000 in
theorem W3_arg0 (c : Dev nD) : W3 m ρ c (Proc.devRef .tc main_arg0) = m ((c : Thread nD τ).loc main_arg0) :=
  (StableHlo.after_of_forall_not_mem (b := Proc.devRef .tc main_arg0) _ _ (List.forall_iff_forall_mem.mp (by
          simp only [main_part0_ops1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg0) = W2 m ρ c (Proc.devRef .tc main_arg0)).trans (W2_arg0 m ρ c)
set_option maxHeartbeats 4000000 in
theorem W4_arg0 (c : Dev nD) : W4 m ρ c (Proc.devRef .tc main_arg0) = m ((c : Thread nD τ).loc main_arg0) :=
  (StableHlo.after_of_forall_not_mem (b := Proc.devRef .tc main_arg0) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W4 m ρ c (Proc.devRef .tc main_arg0) = W3 m ρ c (Proc.devRef .tc main_arg0)).trans (W3_arg0 m ρ c)
theorem W5_arg0 (c : Dev nD) : W5 m ρ c (Proc.devRef .tc main_arg0) = m ((c : Thread nD τ).loc main_arg0) :=
  (W5_of_ne m ρ c main_arg0 (by decide)).trans (W4_arg0 m ρ c)

theorem W1_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg1) = W0 m ρ c (Proc.devRef .tc main_arg1)).trans rfl
theorem W2_arg1 (c : Dev nD) : W2 m ρ c (Proc.devRef .tc main_arg1) = m ((c : Thread nD τ).loc main_arg1) :=
  (W2_of_ne m ρ c main_arg1 (by decide) :
    W2 m ρ c (Proc.devRef .tc main_arg1) = W1 m ρ c (Proc.devRef .tc main_arg1)).trans (W1_arg1 m ρ c)
set_option maxHeartbeats 4000000 in
theorem W3_arg1 (c : Dev nD) : W3 m ρ c (Proc.devRef .tc main_arg1) = m ((c : Thread nD τ).loc main_arg1) :=
  (StableHlo.after_of_forall_not_mem (b := Proc.devRef .tc main_arg1) _ _ (List.forall_iff_forall_mem.mp (by
          simp only [main_part0_ops1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg1) = W2 m ρ c (Proc.devRef .tc main_arg1)).trans (W2_arg1 m ρ c)
set_option maxHeartbeats 4000000 in
theorem W4_arg1 (c : Dev nD) : W4 m ρ c (Proc.devRef .tc main_arg1) = m ((c : Thread nD τ).loc main_arg1) :=
  (StableHlo.after_of_forall_not_mem (b := Proc.devRef .tc main_arg1) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W4 m ρ c (Proc.devRef .tc main_arg1) = W3 m ρ c (Proc.devRef .tc main_arg1)).trans (W3_arg1 m ρ c)
theorem W5_arg1 (c : Dev nD) : W5 m ρ c (Proc.devRef .tc main_arg1) = m ((c : Thread nD τ).loc main_arg1) :=
  (W5_of_ne m ρ c main_arg1 (by decide)).trans (W4_arg1 m ρ c)

theorem W1_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg2) = W0 m ρ c (Proc.devRef .tc main_arg2)).trans rfl
theorem W2_arg2 (c : Dev nD) : W2 m ρ c (Proc.devRef .tc main_arg2) = m ((c : Thread nD τ).loc main_arg2) :=
  (W2_of_ne m ρ c main_arg2 (by decide) :
    W2 m ρ c (Proc.devRef .tc main_arg2) = W1 m ρ c (Proc.devRef .tc main_arg2)).trans (W1_arg2 m ρ c)
set_option maxHeartbeats 4000000 in
theorem W3_arg2 (c : Dev nD) : W3 m ρ c (Proc.devRef .tc main_arg2) = m ((c : Thread nD τ).loc main_arg2) :=
  (StableHlo.after_of_forall_not_mem (b := Proc.devRef .tc main_arg2) _ _ (List.forall_iff_forall_mem.mp (by
          simp only [main_part0_ops1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg2) = W2 m ρ c (Proc.devRef .tc main_arg2)).trans (W2_arg2 m ρ c)
set_option maxHeartbeats 4000000 in
theorem W4_arg2 (c : Dev nD) : W4 m ρ c (Proc.devRef .tc main_arg2) = m ((c : Thread nD τ).loc main_arg2) :=
  (StableHlo.after_of_forall_not_mem (b := Proc.devRef .tc main_arg2) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W4 m ρ c (Proc.devRef .tc main_arg2) = W3 m ρ c (Proc.devRef .tc main_arg2)).trans (W3_arg2 m ρ c)
theorem W5_arg2 (c : Dev nD) : W5 m ρ c (Proc.devRef .tc main_arg2) = m ((c : Thread nD τ).loc main_arg2) :=
  (W5_of_ne m ρ c main_arg2 (by decide)).trans (W4_arg2 m ρ c)

theorem W1_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg3) = W0 m ρ c (Proc.devRef .tc main_arg3)).trans rfl
theorem W2_arg3 (c : Dev nD) : W2 m ρ c (Proc.devRef .tc main_arg3) = m ((c : Thread nD τ).loc main_arg3) :=
  ((W2_arr m ρ c 1).trans (((dat0 (V1 m ρ) c).arrAt_in 1 rfl _).trans (A_eq0 (V1 m ρ) c 1)) :
    W2 m ρ c (Proc.devRef .tc main_arg3) = W1 m ρ c (Proc.devRef .tc main_arg3)).trans (W1_arg3 m ρ c)
set_option maxHeartbeats 4000000 in
theorem W3_arg3 (c : Dev nD) : W3 m ρ c (Proc.devRef .tc main_arg3) = m ((c : Thread nD τ).loc main_arg3) :=
  (StableHlo.after_of_forall_not_mem (b := Proc.devRef .tc main_arg3) _ _ (List.forall_iff_forall_mem.mp (by
          simp only [main_part0_ops1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg3) = W2 m ρ c (Proc.devRef .tc main_arg3)).trans (W2_arg3 m ρ c)
set_option maxHeartbeats 4000000 in
theorem W4_arg3 (c : Dev nD) : W4 m ρ c (Proc.devRef .tc main_arg3) = m ((c : Thread nD τ).loc main_arg3) :=
  (StableHlo.after_of_forall_not_mem (b := Proc.devRef .tc main_arg3) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W4 m ρ c (Proc.devRef .tc main_arg3) = W3 m ρ c (Proc.devRef .tc main_arg3)).trans (W3_arg3 m ρ c)
theorem W5_arg3 (c : Dev nD) : W5 m ρ c (Proc.devRef .tc main_arg3) = m ((c : Thread nD τ).loc main_arg3) :=
  (W5_of_ne m ρ c main_arg3 (by decide)).trans (W4_arg3 m ρ c)

theorem W1_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg4) = W0 m ρ c (Proc.devRef .tc main_arg4)).trans rfl
theorem W2_arg4 (c : Dev nD) : W2 m ρ c (Proc.devRef .tc main_arg4) = m ((c : Thread nD τ).loc main_arg4) :=
  (W2_of_ne m ρ c main_arg4 (by decide) :
    W2 m ρ c (Proc.devRef .tc main_arg4) = W1 m ρ c (Proc.devRef .tc main_arg4)).trans (W1_arg4 m ρ c)
set_option maxHeartbeats 4000000 in
theorem W3_arg4 (c : Dev nD) : W3 m ρ c (Proc.devRef .tc main_arg4) = m ((c : Thread nD τ).loc main_arg4) :=
  (StableHlo.after_of_forall_not_mem (b := Proc.devRef .tc main_arg4) _ _ (List.forall_iff_forall_mem.mp (by
          simp only [main_part0_ops1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg4) = W2 m ρ c (Proc.devRef .tc main_arg4)).trans (W2_arg4 m ρ c)
set_option maxHeartbeats 4000000 in
theorem W4_arg4 (c : Dev nD) : W4 m ρ c (Proc.devRef .tc main_arg4) = m ((c : Thread nD τ).loc main_arg4) :=
  (StableHlo.after_of_forall_not_mem (b := Proc.devRef .tc main_arg4) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W4 m ρ c (Proc.devRef .tc main_arg4) = W3 m ρ c (Proc.devRef .tc main_arg4)).trans (W3_arg4 m ρ c)
theorem W5_arg4 (c : Dev nD) : W5 m ρ c (Proc.devRef .tc main_arg4) = m ((c : Thread nD τ).loc main_arg4) :=
  (W5_of_ne m ρ c main_arg4 (by decide)).trans (W4_arg4 m ρ c)

theorem W1_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg5) = W0 m ρ c (Proc.devRef .tc main_arg5)).trans rfl
theorem W2_arg5 (c : Dev nD) : W2 m ρ c (Proc.devRef .tc main_arg5) = m ((c : Thread nD τ).loc main_arg5) :=
  ((W2_arr m ρ c 3).trans (((dat0 (V1 m ρ) c).arrAt_in 3 rfl _).trans (A_eq0 (V1 m ρ) c 3)) :
    W2 m ρ c (Proc.devRef .tc main_arg5) = W1 m ρ c (Proc.devRef .tc main_arg5)).trans (W1_arg5 m ρ c)
set_option maxHeartbeats 4000000 in
theorem W3_arg5 (c : Dev nD) : W3 m ρ c (Proc.devRef .tc main_arg5) = m ((c : Thread nD τ).loc main_arg5) :=
  (StableHlo.after_of_forall_not_mem (b := Proc.devRef .tc main_arg5) _ _ (List.forall_iff_forall_mem.mp (by
          simp only [main_part0_ops1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg5) = W2 m ρ c (Proc.devRef .tc main_arg5)).trans (W2_arg5 m ρ c)
set_option maxHeartbeats 4000000 in
theorem W4_arg5 (c : Dev nD) : W4 m ρ c (Proc.devRef .tc main_arg5) = m ((c : Thread nD τ).loc main_arg5) :=
  (StableHlo.after_of_forall_not_mem (b := Proc.devRef .tc main_arg5) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W4 m ρ c (Proc.devRef .tc main_arg5) = W3 m ρ c (Proc.devRef .tc main_arg5)).trans (W3_arg5 m ρ c)
theorem W5_arg5 (c : Dev nD) : W5 m ρ c (Proc.devRef .tc main_arg5) = m ((c : Thread nD τ).loc main_arg5) :=
  (W5_of_ne m ρ c main_arg5 (by decide)).trans (W4_arg5 m ρ c)

theorem W1_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg6) = W0 m ρ c (Proc.devRef .tc main_arg6)).trans rfl
theorem W2_arg6 (c : Dev nD) : W2 m ρ c (Proc.devRef .tc main_arg6) = m ((c : Thread nD τ).loc main_arg6) :=
  (W2_of_ne m ρ c main_arg6 (by decide) :
    W2 m ρ c (Proc.devRef .tc main_arg6) = W1 m ρ c (Proc.devRef .tc main_arg6)).trans (W1_arg6 m ρ c)
set_option maxHeartbeats 4000000 in
theorem W3_arg6 (c : Dev nD) : W3 m ρ c (Proc.devRef .tc main_arg6) = m ((c : Thread nD τ).loc main_arg6) :=
  (StableHlo.after_of_forall_not_mem (b := Proc.devRef .tc main_arg6) _ _ (List.forall_iff_forall_mem.mp (by
          simp only [main_part0_ops1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg6) = W2 m ρ c (Proc.devRef .tc main_arg6)).trans (W2_arg6 m ρ c)
set_option maxHeartbeats 4000000 in
theorem W4_arg6 (c : Dev nD) : W4 m ρ c (Proc.devRef .tc main_arg6) = m ((c : Thread nD τ).loc main_arg6) :=
  (StableHlo.after_of_forall_not_mem (b := Proc.devRef .tc main_arg6) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W4 m ρ c (Proc.devRef .tc main_arg6) = W3 m ρ c (Proc.devRef .tc main_arg6)).trans (W3_arg6 m ρ c)
theorem W5_arg6 (c : Dev nD) : W5 m ρ c (Proc.devRef .tc main_arg6) = m ((c : Thread nD τ).loc main_arg6) :=
  (W5_of_ne m ρ c main_arg6 (by decide)).trans (W4_arg6 m ρ c)

/-- THE FRAME, at any `F`: every weakly fair execution of @main terminates, nothing faulting, with the seven argument
    arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)) :=
  (θ_run defs _ _).mono (fun r h c =>
    ⟨(h c _ (mem_uc main_arg0 (by decide))).trans (W5_arg0 m ρ c),
     (h c _ (mem_uc main_arg1 (by decide))).trans (W5_arg1 m ρ c),
     (h c _ (mem_uc main_arg2 (by decide))).trans (W5_arg2 m ρ c),
     (h c _ (mem_uc main_arg3 (by decide))).trans (W5_arg3 m ρ c),
     (h c _ (mem_uc main_arg4 (by decide))).trans (W5_arg4 m ρ c),
     (h c _ (mem_uc main_arg5 (by decide))).trans (W5_arg5 m ρ c),
     (h c _ (mem_uc main_arg6 (by decide))).trans (W5_arg6 m ρ c)⟩)
    (run_all m ρ)

end Cert.Kernel.Hand

end
-- ==== Proof.KI.Mlp.lean ====
/-
  Region 0 of @main: the encoder kernel (two matrix products with bias and a clamp at zero, one block of 1024 rows
  per grid point), at a PARAMETER `V`, the TensorCore's buffer contents when the region is entered.
  Each input window's staging buffer holds that window's block of its array at every point (the four weight and bias
  windows are fetched once and their block index never moves); the body stores one whole block, the payload of the
  five loaded blocks. So the proof data name, per point, each input's block and the output's payload of them, and the
  body obligation is the body's triple at those blocks.
-/
import proofs.«122711_j214748365383_1_alg».proof.Proof.Gen.KernelIdeal.Launch
import proofs.«122711_j214748365383_1_alg».proof.Proof.Gen.KernelIdeal.Skeleton
import proofs.«122711_j214748365383_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rIn0_0 : Rect S1024x256 := Rect.unit (s := S1024x256) ![0, 0] S1024x256.size inb_S1024x256_S1024x256_0_0
abbrev rIn0_1 : Rect S256x256 := Rect.unit (s := S256x256) ![0, 0] S256x256.size inb_S256x256_S256x256_0_0
abbrev rIn0_2 : Rect S1x256 := Rect.unit (s := S1x256) ![0, 0] S1x256.size inb_S1x256_S1x256_0_0
abbrev rIn0_3 : Rect S256x128 := Rect.unit (s := S256x128) ![0, 0] S256x128.size inb_S256x128_S256x128_0_0
abbrev rIn0_4 : Rect S1x128 := Rect.unit (s := S1x128) ![0, 0] S1x128.size inb_S1x128_S1x128_0_0
/-- The whole-block rectangle of the output's staging buffer. -/
abbrev rOut0 : Rect S1024x128 := Rect.unit (s := S1024x128) ![0, 0] S1024x128.size inb_S1024x128_S1024x128_0_0

/-- What the body leaves in the output window's staging buffer: its one store, of the payload of the five loaded blocks. -/
def out0 (x0 : Vec F S1024x256 .f32) (x1 : Vec F S256x256 .f32) (x2 : Vec F S1x256 .f32) (x3 : Vec F S256x128 .f32) (x4 : Vec F S1x128 .f32) :
    Vec F S1024x128 .f32 :=
  View.canon [⟨rOut0, k0_pay1 (View.ld x0 rIn0_0) (View.ld x1 rIn0_1) (View.ld x2 rIn0_2) (View.ld x3 rIn0_3) (View.ld x4 rIn0_4)⟩]

/-- The one store is of the whole block, so it covers it. -/
theorem cover0 (p0 : Vec F S1024x128 .f32) (y : S1024x128.Idx) :
    ∃ pc ∈ ([⟨rOut0, p0⟩] : List (View.Piece (Elt F) S1024x128 .f32)), y ∈ pc.1.set :=
  View.cover_of_tiled [⟨rOut0, p0⟩] S1024x128.size (by rfl) y

set_option maxHeartbeats 1000000 in
/-- The body on whole staging memrefs, the five inputs' at contents `x0 … x4` and the output's at anything, runs to the
    continuation with the inputs' untouched and the output's at `out0` of them. -/
theorem run_body0 (c : Dev nD) (E : Set ℕ) (i : grid0.Coords)
    (arg1 : Memref sig .tc .vmem S1024x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S1024x128 .f32) (harg6 : arg6.IsWhole)
    (x0 : Vec F S1024x256 .f32) (x1 : Vec F S256x256 .f32) (x2 : Vec F S1x256 .f32) (x3 : Vec F S256x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0 _)

/-- The proof data of the encoder's pipeline on core `c`: the arrays as the region finds them; after the body at point
    `t` each input's buffer at its block and the output's at the payload of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => out0 (blk0 V c 0 t) (blk0 V c 1 t) (blk0 V c 2 t) (blk0 V c 3 t) (blk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) :
    (dat0 V c).after 5 t = out0 (blk0 V c 0 t) (blk0 V c 1 t) (blk0 V c 2 t) (blk0 V c 3 t) (blk0 V c 4 t) := by dsimp only [dat0]

/-- Input window 0's current staging buffer holds its block at every point, fetched there or not. -/
theorem before0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [A_eq0]; try rfl) t d).trans
    (by unfold Dat.fetched Dat.blockOf blk0; rw [A_eq0]; try rfl)
/-- Input window 1's current staging buffer holds its block at every point, fetched there or not. -/
theorem before0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rw [A_eq0]; try rfl) t d).trans
    (by unfold Dat.fetched Dat.blockOf blk0; rw [A_eq0]; try rfl)
/-- Input window 2's current staging buffer holds its block at every point, fetched there or not. -/
theorem before0_2 (c : Dev nD) (t : Fin cfg0.N) (d) : (dat0 V c).before 2 t d = blk0 V c 2 t :=
  ((dat0 V c).before_in_eq_fetched 2 rfl (fun _ => rfl) (fun _ _ _ => rfl)
    (fun t => by rw [after0_2]; unfold Dat.blockOf blk0; rw [A_eq0]; try rfl) t d).trans
    (by unfold Dat.fetched Dat.blockOf blk0; rw [A_eq0]; try rfl)
/-- Input window 3's current staging buffer holds its block at every point, fetched there or not. -/
theorem before0_3 (c : Dev nD) (t : Fin cfg0.N) (d) : (dat0 V c).before 3 t d = blk0 V c 3 t :=
  ((dat0 V c).before_in_eq_fetched 3 rfl (fun _ => rfl) (fun _ _ _ => rfl)
    (fun t => by rw [after0_3]; unfold Dat.blockOf blk0; rw [A_eq0]; try rfl) t d).trans
    (by unfold Dat.fetched Dat.blockOf blk0; rw [A_eq0]; try rfl)
/-- Input window 4's current staging buffer holds its block at every point, fetched there or not. -/
theorem before0_4 (c : Dev nD) (t : Fin cfg0.N) (d) : (dat0 V c).before 4 t d = blk0 V c 4 t :=
  ((dat0 V c).before_in_eq_fetched 4 rfl (fun _ => rfl) (fun _ _ _ => rfl)
    (fun t => by rw [after0_4]; unfold Dat.blockOf blk0; rw [A_eq0]; try rfl) t d).trans
    (by unfold Dat.fetched Dat.blockOf blk0; rw [A_eq0]; try rfl)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `run_body0` applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (run_body0 c Set.univ _ _ _ _ _ _ _ _ _ _ _ _ _ (blk0 V c 0 t) (blk0 V c 1 t) (blk0 V c 2 t) (blk0 V c 3 t) (blk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Aat.lean ====
/-
  Region 1 of @main: the self-similarity kernel (one 1024 × 1024 block of the product of a row block with the
  transpose of another row block per grid point, the contraction over all 128 columns inside the block), at a
  PARAMETER `V`, the TensorCore's buffer contents when the region is entered.
  Both input windows read ONE array (the same matrix is handed in twice), so the proof data hold it at the two halves
  of the full share, one per window; the output window holds its own array whole.
-/
import proofs.«122711_j214748365383_1_alg».proof.Proof.Gen.KernelIdeal.Launch
import proofs.«122711_j214748365383_1_alg».proof.Proof.Gen.KernelIdeal.Skeleton
import proofs.«122711_j214748365383_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rIn1 : Rect S1024x128 := Rect.unit (s := S1024x128) ![0, 0] S1024x128.size inb_S1024x128_S1024x128_0_0
/-- The whole-block rectangle of the output's staging buffer. -/
abbrev rOut1 : Rect S1024x1024 := Rect.unit (s := S1024x1024) ![0, 0] S1024x1024.size inb_S1024x1024_S1024x1024_0_0

/-- What the body leaves in the output window's staging buffer: its one store, of the payload of the two loaded blocks. -/
def out1 (x0 x1 : Vec F S1024x128 .f32) : Vec F S1024x1024 .f32 :=
  View.canon [⟨rOut1, k1_pay1 (View.ld x0 rIn1) (View.ld x1 rIn1)⟩]

/-- The one store is of the whole block, so it covers it. -/
theorem cover1 (p0 : Vec F S1024x1024 .f32) (y : S1024x1024.Idx) :
    ∃ pc ∈ ([⟨rOut1, p0⟩] : List (View.Piece (Elt F) S1024x1024 .f32)), y ∈ pc.1.set :=
  View.cover_of_tiled [⟨rOut1, p0⟩] S1024x1024.size (by rfl) y

set_option maxHeartbeats 1000000 in
/-- The body on whole staging memrefs, the two inputs' at contents `x0`, `x1` and the output's at anything, runs to the
    continuation with the inputs' untouched and the output's at `out1` of them. -/
theorem run_body1 (c : Dev nD) (E : Set ℕ) (i : grid1.Coords)
    (arg2 : Memref sig .tc .vmem S1024x128 .f32) (harg2 : arg2.IsWhole) (arg3 : Memref sig .tc .vmem S1024x128 .f32) (harg3 : arg3.IsWhole)
    (arg4 : Memref sig .tc .vmem S1024x1024 .f32) (harg4 : arg4.IsWhole)
    (x0 x1 : Vec F S1024x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1 x0 x1)) -∗ K ⟨⟩))
      ⊢ wp frame (wpE (defs₀ (F := F)) Variants.none c none) E (cc1__aat_kernel i arg2 harg2 arg3 harg3 arg4 harg4) K := by
  simp only [cc1__aat_kernel_eq_skeleton]; unfold cc1__aat_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-- The proof data of the self-similarity pipeline on core `c`: the arrays as the region finds them; after the body at
    point `t` each input's buffer at its block and the output's at the payload of the two input blocks; the invariant
    the scoped rest and the generator register, untouched; nothing owed; the shared input array held at the left half of
    the full share by window 0 and at the right half by window 1. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => out1 (blk1 V c 0 t) (blk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem q1_0 (c : Dev nD) : (dat1 V c).q 0 = fullShare.left := by dsimp only [dat1]
theorem q1_1 (c : Dev nD) : (dat1 V c).q 1 = fullShare.right := by dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = out1 (blk1 V c 0 t) (blk1 V c 1 t) := by dsimp only [dat1]

/-- Input window 0's current staging buffer holds its block at every point, fetched there or not. -/
theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [A_eq1]; try rfl) t d).trans
    (by unfold Dat.fetched Dat.blockOf blk1; rw [A_eq1]; try rfl)
/-- Input window 1's current staging buffer holds its block at every point, fetched there or not. -/
theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [A_eq1]; try rfl) t d).trans
    (by unfold Dat.fetched Dat.blockOf blk1; rw [A_eq1]; try rfl)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `run_body1` applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (run_body1 c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Shared.lean ====
/-
  One array under two windows: the share bookkeeping of the second pipeline's entry and exit.

  The second pipeline of the program reads one array, `main_v95` (f32[8192,128]), through BOTH of its input
  windows, and writes `main_v96` (f32[8192,8192]) through its output window. A pipeline holds each input array at
  the share its proof data name and each output array at the full share, one points-to per WINDOW; the core, between
  pipelines, holds each unscoped buffer once, whole, at the full share. The two pictures agree because a points-to
  divides along its share: the full share is the join of its left and right halves, so

      main_v95 ↦{full} f   ⊣⊢   main_v95 ↦{left} f  ∗  main_v95 ↦{right} f.

  Hence, when the proof data hold window 0's array at the left half and window 1's at the right half:

    * ENTRY. The core's unscoped buffers at a valuation are the two DISTINCT buffers behind the windows' arrays and
      the rest; the buffer `main_v95` is divided into its halves, one per input window, and `main_v96` goes whole to
      the output window — the pipeline's arrays at their entry contents.
    * EXIT. Conversely the pipeline's arrays at what it leaves — the two halves of `main_v95` at ONE contents, since
      both are what the final valuation has there — join into the whole buffer, and with `main_v96` and the
      untouched rest they are the core's unscoped buffers at the final valuation.

  Every window's array is a whole buffer, so a points-to over the array's index set is one over the whole buffer.
-/
import proofs.«122711_j214748365383_1_alg».proof.Proof.Gen.KernelIdeal.Launch
import proofs.«122711_j214748365383_1_alg».proof.Proof.Gen.KernelIdeal.Skeleton
import proofs.«122711_j214748365383_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers behind the three windows' arrays are two. -/
theorem arrRefs1 : Finset.univ.image (Pipeline.arrRef spec1) = ({main_v95, main_v96} : Finset (Ref sig .tc)) := by decide

/-- A core's unscoped buffers at contents `V` are those two buffers, each whole at the full share at `V`, and the rest. -/
theorem unscopedBufs1_split (c : Dev nD) (V : (b : Ref sig .tc) → Buf (Elt F) ((c.tc : Thread nD τ).loc b)) :
    (unscopedBufs (Ix := Unit) (Name := ℕ) (U := UR sig nD τ) (Lvl := ℕ) c V : sProp 𝕄)
      = iprop(((((c.tc : Thread nD τ).loc main_v95) ↦{fullShare} V main_v95) ∗ (((c.tc : Thread nD τ).loc main_v96) ↦{fullShare} V main_v96))
          ∗ Pipeline.unscopedRest (Ix := Unit) (Name := ℕ) (U := UR sig nD τ) (Lvl := ℕ) spec1 c V) := by
  classical
  have hA : ({main_v95, main_v96} : Finset (Ref sig .tc)) ⊆ Finset.univ.filter fun b : Ref sig .tc => ¬ b.isScoped := by decide
  unfold unscopedBufs Pipeline.unscopedRest
  rw [arrRefs1, bigSep_sdiff_split hA, bigSep_insert (by decide), bigSep_singleton]
  rfl

/-- Window 0's array, a whole buffer held at the left half share, is `main_v95` at that share. -/
theorem pt0 (c : Dev nD) (dat : Dat τ (Elt F) Unit ℕ (UR sig nD τ) ℕ cfg1 c)
    (hq : dat.q 0 = fullShare.left)
    (G : (w : Fin cfg1.W) → Buf (Elt F) ((cfg1.win w).arr.view.loc (c.tc : Thread nD τ))) :
    (((cfg1.win 0).arr.view.loc (c.tc : Thread nD τ)) ↦[(cfg1.win 0).arr.view.set]{dat.share 0} G 0 : sProp 𝕄)
      = (((c.tc : Thread nD τ).loc main_v95) ↦{fullShare.left} G 0) := by
  have hs : dat.share 0 = fullShare.left := (show dat.share 0 = dat.q 0 from rfl).trans hq
  have e : (cfg1.win 0).arr.view.set = Finset.univ := (arr_whole1 0).set_eq_univ
  rw [hs, e]

/-- Window 1's array, a whole buffer held at the right half share, is `main_v95` at that share. -/
theorem pt1 (c : Dev nD) (dat : Dat τ (Elt F) Unit ℕ (UR sig nD τ) ℕ cfg1 c)
    (hq : dat.q 1 = fullShare.right)
    (G : (w : Fin cfg1.W) → Buf (Elt F) ((cfg1.win w).arr.view.loc (c.tc : Thread nD τ))) :
    (((cfg1.win 1).arr.view.loc (c.tc : Thread nD τ)) ↦[(cfg1.win 1).arr.view.set]{dat.share 1} G 1 : sProp 𝕄)
      = (((c.tc : Thread nD τ).loc main_v95) ↦{fullShare.right} G 1) := by
  have hs : dat.share 1 = fullShare.right := (show dat.share 1 = dat.q 1 from rfl).trans hq
  have e : (cfg1.win 1).arr.view.set = Finset.univ := (arr_whole1 1).set_eq_univ
  rw [hs, e]

/-- The output window's array, a whole buffer held at the full share, is `main_v96` at the full share. -/
theorem pt2 (c : Dev nD) (dat : Dat τ (Elt F) Unit ℕ (UR sig nD τ) ℕ cfg1 c)
    (G : (w : Fin cfg1.W) → Buf (Elt F) ((cfg1.win w).arr.view.loc (c.tc : Thread nD τ))) :
    (((cfg1.win 2).arr.view.loc (c.tc : Thread nD τ)) ↦[(cfg1.win 2).arr.view.set]{dat.share 2} G 2 : sProp 𝕄)
      = (((c.tc : Thread nD τ).loc main_v96) ↦{fullShare} G 2) := by
  have hs : dat.share 2 = fullShare := rfl
  have e : (cfg1.win 2).arr.view.set = Finset.univ := (arr_whole1 2).set_eq_univ
  rw [hs, e]

/-- The pipeline's arrays at contents `G`, window by window: `main_v95` at its left half at `G 0` and at its right half at `G 1`, and `main_v96` whole at `G 2`. -/
theorem arrays1_eq (c : Dev nD) (dat : Dat τ (Elt F) Unit ℕ (UR sig nD τ) ℕ cfg1 c)
    (hq0 : dat.q 0 = fullShare.left) (hq1 : dat.q 1 = fullShare.right)
    (G : (w : Fin cfg1.W) → Buf (Elt F) ((cfg1.win w).arr.view.loc (c.tc : Thread nD τ))) :
    (dat.arrays G : sProp 𝕄)
      = iprop((((c.tc : Thread nD τ).loc main_v95) ↦{fullShare.left} G 0) ∗ (((c.tc : Thread nD τ).loc main_v95) ↦{fullShare.right} G 1)
          ∗ (((c.tc : Thread nD τ).loc main_v96) ↦{fullShare} G 2)) := by
  unfold Dat.arrays
  rw [bigSep_W1]
  exact congrArg₂ _ (pt0 c dat hq0 G) (congrArg₂ _ (pt1 c dat hq1 G) (pt2 c dat G))

/-- ENTRY: the core's unscoped buffers at contents `Wv` are the pipeline's arrays at the proof data's entry contents — the shared input array split into its two half shares — and the unscoped rest. -/
theorem arrays1_of_held (c : Dev nD) (dat : Dat τ (Elt F) Unit ℕ (UR sig nD τ) ℕ cfg1 c)
    (hq0 : dat.q 0 = fullShare.left) (hq1 : dat.q 1 = fullShare.right)
    (Wv : Valuation τ sig (Elt F)) (hA : ∀ w, dat.A w = Wv (Proc.devRef .tc (Pipeline.arrRef spec1 w))) :
    (StableHlo.held (c : Thread nD τ) (Pipeline.ucRefs τ sig) Wv : sProp 𝕄)
      ⊢ iprop(dat.arrays (dat.arrAt · 0) ∗ Pipeline.unscopedRest (Ix := Unit) (Name := ℕ) (U := UR sig nD τ) (Lvl := ℕ) spec1 c (fun b => Wv (Proc.devRef .tc b))) := by
  rw [← Pipeline.unscopedBufs_held (Ix := Unit) (Name := ℕ) (U := UR sig nD τ) (Lvl := ℕ) c Wv]
  rw [unscopedBufs1_split, arrays1_eq c dat hq0 hq1]
  have h0 : dat.arrAt 0 0 = Wv (Proc.devRef .tc main_v95) := hA 0
  have h1 : dat.arrAt 1 0 = Wv (Proc.devRef .tc main_v95) := hA 1
  have h2 : dat.arrAt 2 0 = Wv (Proc.devRef .tc main_v96) := hA 2
  rw [h0, h1, h2]
  refine sep_mono ?_ .rfl
  refine (sep_mono (pointsTo_share (PosShare.mem_left_op_right fullShare)).1 .rfl).trans ?_
  iintro ⟨⟨H1, H2⟩, H3⟩
  isplitl [H1]; · iexact H1
  isplitl [H2]; · iexact H2
  iexact H3

/-- EXIT: the arrays at what the pipeline leaves (`arrAt · N`) and the unscoped rest are the core's unscoped buffers at contents `Wv'`, when `Wv'` has each array at what the pipeline leaves and every other buffer as at entry. -/
theorem held_of_arrays1 (c : Dev nD) (dat : Dat τ (Elt F) Unit ℕ (UR sig nD τ) ℕ cfg1 c)
    (hq0 : dat.q 0 = fullShare.left) (hq1 : dat.q 1 = fullShare.right)
    (Wv Wv' : Valuation τ sig (Elt F))
    (hF : ∀ w, dat.arrAt w cfg1.N = Wv' (Proc.devRef .tc (Pipeline.arrRef spec1 w)))
    (hrest : ∀ b : Ref sig .tc, b ∉ Finset.univ.image (Pipeline.arrRef spec1) → Wv' (Proc.devRef .tc b) = Wv (Proc.devRef .tc b)) :
    iprop(dat.arrays (dat.arrAt · cfg1.N) ∗ Pipeline.unscopedRest (Ix := Unit) (Name := ℕ) (U := UR sig nD τ) (Lvl := ℕ) spec1 c (fun b => Wv (Proc.devRef .tc b)))
      ⊢ (StableHlo.held (c : Thread nD τ) (Pipeline.ucRefs τ sig) Wv' : sProp 𝕄) := by
  rw [← Pipeline.unscopedBufs_held (Ix := Unit) (Name := ℕ) (U := UR sig nD τ) (Lvl := ℕ) c Wv']
  rw [unscopedBufs1_split, arrays1_eq c dat hq0 hq1]
  have h0 : dat.arrAt 0 cfg1.N = Wv' (Proc.devRef .tc main_v95) := hF 0
  have h1 : dat.arrAt 1 cfg1.N = Wv' (Proc.devRef .tc main_v95) := hF 1
  have h2 : dat.arrAt 2 cfg1.N = Wv' (Proc.devRef .tc main_v96) := hF 2
  rw [h0, h1, h2]
  refine sep_mono ?_ (Entails.of_eq ?_)
  · refine BIBase.Entails.trans ?_ (sep_mono (pointsTo_share (PosShare.mem_left_op_right fullShare)).2 .rfl)
    iintro ⟨H1, H2, H3⟩
    isplitr [H3]
    · isplitl [H1]; · iexact H1
      iexact H2
    iexact H3
  · unfold Pipeline.unscopedRest
    exact bigSep_congr fun b hb => by beta_reduce; rw [hrest b (Finset.mem_sdiff.mp hb).2]

end Cert.KernelIdeal.Hand
-- ==== Proof.KI.Run.lean ====
/-
  The run of @main: three stretches of host operations and the two kernel regions, in order
  (host, encoder region, host, host, self-similarity region — the long stretch between the regions is cut in two).
  The buffer contents at each boundary are a fold from the launch memory: a host stretch's operations applied
  (`StableHlo.after`), the encoder region's arrays at what its write-backs leave, the self-similarity region's
  output array at what its write-backs leave and its (shared) input array as entered. Every pipeline's proof data
  stand at their region's entry contents; the thread state that rides through the segments is "every unscoped buffer at
  the boundary's contents, the generator register at some state, nothing owed". The launch then says: every weakly
  fair execution terminates, faulting nowhere, with every unscoped buffer at the last boundary's contents.
-/
import proofs.«122711_j214748365383_1_alg».proof.Proof.KI.Mlp
import proofs.«122711_j214748365383_1_alg».proof.Proof.KI.Aat
import proofs.«122711_j214748365383_1_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the encoder region's entry). -/
abbrev W1 : Dev nD → Valuation τ sig (Elt F) := fun c => StableHlo.after main_part0_ops0 (W0 m ρ c)
abbrev V1 : (c : Dev nD) → (b : Ref sig .tc) → Buf (Elt F) ((c : Thread nD τ).loc b) := fun c b => W1 m ρ c (Proc.devRef .tc b)
/-- At the encoder region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c (Proc.devRef .tc b)
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch, -/
abbrev W3 : Dev nD → Valuation τ sig (Elt F) := fun c => StableHlo.after main_part0_ops1 (W2 m ρ c)
/-- and after the third (the self-similarity region's entry). -/
abbrev W4 : Dev nD → Valuation τ sig (Elt F) := fun c => StableHlo.after main_part1_ops0 (W3 m ρ c)
abbrev V4 : (c : Dev nD) → (b : Ref sig .tc) → Buf (Elt F) ((c : Thread nD τ).loc b) := fun c b => W4 m ρ c (Proc.devRef .tc b)
/-- At the self-similarity region's exit: its output array at what the pipeline leaves, every other buffer (its input
    array among them: the region only reads it) as entered. -/
def W5 (c : Dev nD) : Valuation τ sig (Elt F) := fun b =>
  if h : Proc.devRef .tc main_v96 = b then
    cast (congrArg (fun b' : DevRef τ sig => b'.ty.Contents (Elt F)) h) ((dat1 (V4 m ρ) c).arrAt 2 cfg1.N)
  else W4 m ρ c b
theorem W5_out (c : Dev nD) : W5 m ρ c (Proc.devRef .tc main_v96) = (dat1 (V4 m ρ) c).arrAt 2 cfg1.N := by
  unfold W5; rw [dif_pos rfl]; rfl
theorem W5_of_ne (c : Dev nD) (b : Ref sig .tc) (hb : main_v96 ≠ b) :
    W5 m ρ c (Proc.devRef .tc b) = W4 m ρ c (Proc.devRef .tc b) := by
  unfold W5; rw [dif_neg]; exact fun e => hb (Proc.devRef_injective _ e)
/-- Each of the region's three windows ends holding what the last boundary's contents say: the two input windows the
    shared array as entered, the output window its write-backs folded. -/
theorem hF1 (c : Dev nD) (w : Fin cfg1.W) : (dat1 (V4 m ρ) c).arrAt w cfg1.N = W5 m ρ c (Proc.devRef .tc (Pipeline.arrRef spec1 w)) := by
  match w with
  | ⟨0, _⟩ => exact (((dat1 (V4 m ρ) c).arrAt_in 0 rfl _).trans (A_eq1 (V4 m ρ) c 0)).trans (W5_of_ne m ρ c main_v95 (by decide)).symm
  | ⟨1, _⟩ => exact (((dat1 (V4 m ρ) c).arrAt_in 1 rfl _).trans (A_eq1 (V4 m ρ) c 1)).trans (W5_of_ne m ρ c main_v95 (by decide)).symm
  | ⟨2, _⟩ => exact (W5_out m ρ c).symm
theorem hrest1 (c : Dev nD) : ∀ b : Ref sig .tc, b ∉ Finset.univ.image (Pipeline.arrRef spec1) → W5 m ρ c (Proc.devRef .tc b) = W4 m ρ c (Proc.devRef .tc b) :=
  fun b hb => W5_of_ne m ρ c b fun e => hb (Finset.mem_image.mpr ⟨2, Finset.mem_univ _, e⟩)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (main_part0_ops0 : List (HloOp τ sig (Elt F))).Forall fun op => op.fresh = ∅ := by
  simp only [List.Forall]; repeat' constructor
set_option maxHeartbeats 4000000 in
theorem ops1_fresh : (main_part0_ops1 : List (HloOp τ sig (Elt F))).Forall fun op => op.fresh = ∅ := by
  simp only [List.Forall]; repeat' constructor
set_option maxHeartbeats 4000000 in
theorem ops2_fresh : (main_part1_ops0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The encoder region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The self-similarity region over the thread state: entered from every unscoped buffer at `W4`, left at `W5`. Its
    two input windows share one array, split along the share at entry and joined at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := arrays1_of_held (F := F) c (pdats m ρ 1 c) (q1_0 (V4 m ρ) c) (q1_1 (V4 m ρ) c) (W4 m ρ c) fun _ => rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := held_of_arrays1 (F := F) c (pdats m ρ 1 c) (q1_0 (V4 m ρ) c) (q1_1 (V4 m ρ) c) (W4 m ρ c) (W5 m ρ c) (hF1 m ρ c) (hrest1 m ρ c)
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 5 segments in order. -/
abbrev segs : List (Pipeline.Seg (pcfgs (F := F)) adm (pdats m ρ) () defs₀ 𝒱₀ L lv) :=
  [ .host (hseg main_part0_ops0 main_part0_ops0_sub ops0_fresh (W0 m ρ)),
    .region (reg0 m ρ),
    .host (hseg main_part0_ops1 main_part0_ops1_sub ops1_fresh (W2 m ρ)),
    .host (hseg main_part1_ops0 main_part1_ops0_sub ops2_fresh (W3 m ρ)),
    .region (reg1 m ρ) ]
/-- @main IS the run of the segments. -/
theorem main_run (c : Dev nD) : main (F := F) c = Pipeline.Seg.run (segs m ρ) := (main_chain_windows c).trans (by chain_rfl)

set_option backward.isDefEq.respectTransparency.types false in
/-- THE RUN: from any memory with zero counters every weakly fair execution of @main on the TensorCores terminates,
    nothing faulting, and every final state has each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Hand

end
-- ==== Proof.KI.Args.lean ====
/-
  The argument arrays end as launched: no host operation writes one, the encoder region reads three of them through
  input windows (an input window's array ends as entered) and bypasses the others, the self-similarity region touches
  none. So the fold of contents through @main, read at an argument's buffer, walks back to the launch memory, boundary
  by boundary.
-/
import proofs.«122711_j214748365383_1_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W1_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg0) = W0 m ρ c (Proc.devRef .tc main_arg0)).trans rfl
theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0)) :
    W2 m ρ c (Proc.devRef .tc main_arg0) = W1 m ρ c (Proc.devRef .tc main_arg0)).trans (W1_arg0 m ρ c)
set_option maxHeartbeats 4000000 in
theorem W3_arg0 (c : Dev nD) : W3 m ρ c (Proc.devRef .tc main_arg0) = m ((c : Thread nD τ).loc main_arg0) :=
  (StableHlo.after_of_forall_not_mem (b := Proc.devRef .tc main_arg0) _ _ (List.forall_iff_forall_mem.mp (by
          simp only [main_part0_ops1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg0) = W2 m ρ c (Proc.devRef .tc main_arg0)).trans (W2_arg0 m ρ c)
set_option maxHeartbeats 4000000 in
theorem W4_arg0 (c : Dev nD) : W4 m ρ c (Proc.devRef .tc main_arg0) = m ((c : Thread nD τ).loc main_arg0) :=
  (StableHlo.after_of_forall_not_mem (b := Proc.devRef .tc main_arg0) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W4 m ρ c (Proc.devRef .tc main_arg0) = W3 m ρ c (Proc.devRef .tc main_arg0)).trans (W3_arg0 m ρ c)
theorem W5_arg0 (c : Dev nD) : W5 m ρ c (Proc.devRef .tc main_arg0) = m ((c : Thread nD τ).loc main_arg0) :=
  (W5_of_ne m ρ c main_arg0 (by decide)).trans (W4_arg0 m ρ c)

theorem W1_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg1) = W0 m ρ c (Proc.devRef .tc main_arg1)).trans rfl
theorem W2_arg1 (c : Dev nD) : W2 m ρ c (Proc.devRef .tc main_arg1) = m ((c : Thread nD τ).loc main_arg1) :=
  (W2_of_ne m ρ c main_arg1 (by decide) :
    W2 m ρ c (Proc.devRef .tc main_arg1) = W1 m ρ c (Proc.devRef .tc main_arg1)).trans (W1_arg1 m ρ c)
set_option maxHeartbeats 4000000 in
theorem W3_arg1 (c : Dev nD) : W3 m ρ c (Proc.devRef .tc main_arg1) = m ((c : Thread nD τ).loc main_arg1) :=
  (StableHlo.after_of_forall_not_mem (b := Proc.devRef .tc main_arg1) _ _ (List.forall_iff_forall_mem.mp (by
          simp only [main_part0_ops1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg1) = W2 m ρ c (Proc.devRef .tc main_arg1)).trans (W2_arg1 m ρ c)
set_option maxHeartbeats 4000000 in
theorem W4_arg1 (c : Dev nD) : W4 m ρ c (Proc.devRef .tc main_arg1) = m ((c : Thread nD τ).loc main_arg1) :=
  (StableHlo.after_of_forall_not_mem (b := Proc.devRef .tc main_arg1) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W4 m ρ c (Proc.devRef .tc main_arg1) = W3 m ρ c (Proc.devRef .tc main_arg1)).trans (W3_arg1 m ρ c)
theorem W5_arg1 (c : Dev nD) : W5 m ρ c (Proc.devRef .tc main_arg1) = m ((c : Thread nD τ).loc main_arg1) :=
  (W5_of_ne m ρ c main_arg1 (by decide)).trans (W4_arg1 m ρ c)

theorem W1_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg2) = W0 m ρ c (Proc.devRef .tc main_arg2)).trans rfl
theorem W2_arg2 (c : Dev nD) : W2 m ρ c (Proc.devRef .tc main_arg2) = m ((c : Thread nD τ).loc main_arg2) :=
  (W2_of_ne m ρ c main_arg2 (by decide) :
    W2 m ρ c (Proc.devRef .tc main_arg2) = W1 m ρ c (Proc.devRef .tc main_arg2)).trans (W1_arg2 m ρ c)
set_option maxHeartbeats 4000000 in
theorem W3_arg2 (c : Dev nD) : W3 m ρ c (Proc.devRef .tc main_arg2) = m ((c : Thread nD τ).loc main_arg2) :=
  (StableHlo.after_of_forall_not_mem (b := Proc.devRef .tc main_arg2) _ _ (List.forall_iff_forall_mem.mp (by
          simp only [main_part0_ops1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg2) = W2 m ρ c (Proc.devRef .tc main_arg2)).trans (W2_arg2 m ρ c)
set_option maxHeartbeats 4000000 in
theorem W4_arg2 (c : Dev nD) : W4 m ρ c (Proc.devRef .tc main_arg2) = m ((c : Thread nD τ).loc main_arg2) :=
  (StableHlo.after_of_forall_not_mem (b := Proc.devRef .tc main_arg2) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W4 m ρ c (Proc.devRef .tc main_arg2) = W3 m ρ c (Proc.devRef .tc main_arg2)).trans (W3_arg2 m ρ c)
theorem W5_arg2 (c : Dev nD) : W5 m ρ c (Proc.devRef .tc main_arg2) = m ((c : Thread nD τ).loc main_arg2) :=
  (W5_of_ne m ρ c main_arg2 (by decide)).trans (W4_arg2 m ρ c)

theorem W1_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg3) = W0 m ρ c (Proc.devRef .tc main_arg3)).trans rfl
theorem W2_arg3 (c : Dev nD) : W2 m ρ c (Proc.devRef .tc main_arg3) = m ((c : Thread nD τ).loc main_arg3) :=
  ((W2_arr m ρ c 1).trans (((dat0 (V1 m ρ) c).arrAt_in 1 rfl _).trans (A_eq0 (V1 m ρ) c 1)) :
    W2 m ρ c (Proc.devRef .tc main_arg3) = W1 m ρ c (Proc.devRef .tc main_arg3)).trans (W1_arg3 m ρ c)
set_option maxHeartbeats 4000000 in
theorem W3_arg3 (c : Dev nD) : W3 m ρ c (Proc.devRef .tc main_arg3) = m ((c : Thread nD τ).loc main_arg3) :=
  (StableHlo.after_of_forall_not_mem (b := Proc.devRef .tc main_arg3) _ _ (List.forall_iff_forall_mem.mp (by
          simp only [main_part0_ops1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg3) = W2 m ρ c (Proc.devRef .tc main_arg3)).trans (W2_arg3 m ρ c)
set_option maxHeartbeats 4000000 in
theorem W4_arg3 (c : Dev nD) : W4 m ρ c (Proc.devRef .tc main_arg3) = m ((c : Thread nD τ).loc main_arg3) :=
  (StableHlo.after_of_forall_not_mem (b := Proc.devRef .tc main_arg3) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W4 m ρ c (Proc.devRef .tc main_arg3) = W3 m ρ c (Proc.devRef .tc main_arg3)).trans (W3_arg3 m ρ c)
theorem W5_arg3 (c : Dev nD) : W5 m ρ c (Proc.devRef .tc main_arg3) = m ((c : Thread nD τ).loc main_arg3) :=
  (W5_of_ne m ρ c main_arg3 (by decide)).trans (W4_arg3 m ρ c)

theorem W1_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg4) = W0 m ρ c (Proc.devRef .tc main_arg4)).trans rfl
theorem W2_arg4 (c : Dev nD) : W2 m ρ c (Proc.devRef .tc main_arg4) = m ((c : Thread nD τ).loc main_arg4) :=
  (W2_of_ne m ρ c main_arg4 (by decide) :
    W2 m ρ c (Proc.devRef .tc main_arg4) = W1 m ρ c (Proc.devRef .tc main_arg4)).trans (W1_arg4 m ρ c)
set_option maxHeartbeats 4000000 in
theorem W3_arg4 (c : Dev nD) : W3 m ρ c (Proc.devRef .tc main_arg4) = m ((c : Thread nD τ).loc main_arg4) :=
  (StableHlo.after_of_forall_not_mem (b := Proc.devRef .tc main_arg4) _ _ (List.forall_iff_forall_mem.mp (by
          simp only [main_part0_ops1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg4) = W2 m ρ c (Proc.devRef .tc main_arg4)).trans (W2_arg4 m ρ c)
set_option maxHeartbeats 4000000 in
theorem W4_arg4 (c : Dev nD) : W4 m ρ c (Proc.devRef .tc main_arg4) = m ((c : Thread nD τ).loc main_arg4) :=
  (StableHlo.after_of_forall_not_mem (b := Proc.devRef .tc main_arg4) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W4 m ρ c (Proc.devRef .tc main_arg4) = W3 m ρ c (Proc.devRef .tc main_arg4)).trans (W3_arg4 m ρ c)
theorem W5_arg4 (c : Dev nD) : W5 m ρ c (Proc.devRef .tc main_arg4) = m ((c : Thread nD τ).loc main_arg4) :=
  (W5_of_ne m ρ c main_arg4 (by decide)).trans (W4_arg4 m ρ c)

theorem W1_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg5) = W0 m ρ c (Proc.devRef .tc main_arg5)).trans rfl
theorem W2_arg5 (c : Dev nD) : W2 m ρ c (Proc.devRef .tc main_arg5) = m ((c : Thread nD τ).loc main_arg5) :=
  ((W2_arr m ρ c 3).trans (((dat0 (V1 m ρ) c).arrAt_in 3 rfl _).trans (A_eq0 (V1 m ρ) c 3)) :
    W2 m ρ c (Proc.devRef .tc main_arg5) = W1 m ρ c (Proc.devRef .tc main_arg5)).trans (W1_arg5 m ρ c)
set_option maxHeartbeats 4000000 in
theorem W3_arg5 (c : Dev nD) : W3 m ρ c (Proc.devRef .tc main_arg5) = m ((c : Thread nD τ).loc main_arg5) :=
  (StableHlo.after_of_forall_not_mem (b := Proc.devRef .tc main_arg5) _ _ (List.forall_iff_forall_mem.mp (by
          simp only [main_part0_ops1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg5) = W2 m ρ c (Proc.devRef .tc main_arg5)).trans (W2_arg5 m ρ c)
set_option maxHeartbeats 4000000 in
theorem W4_arg5 (c : Dev nD) : W4 m ρ c (Proc.devRef .tc main_arg5) = m ((c : Thread nD τ).loc main_arg5) :=
  (StableHlo.after_of_forall_not_mem (b := Proc.devRef .tc main_arg5) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W4 m ρ c (Proc.devRef .tc main_arg5) = W3 m ρ c (Proc.devRef .tc main_arg5)).trans (W3_arg5 m ρ c)
theorem W5_arg5 (c : Dev nD) : W5 m ρ c (Proc.devRef .tc main_arg5) = m ((c : Thread nD τ).loc main_arg5) :=
  (W5_of_ne m ρ c main_arg5 (by decide)).trans (W4_arg5 m ρ c)

theorem W1_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg6) = W0 m ρ c (Proc.devRef .tc main_arg6)).trans rfl
theorem W2_arg6 (c : Dev nD) : W2 m ρ c (Proc.devRef .tc main_arg6) = m ((c : Thread nD τ).loc main_arg6) :=
  (W2_of_ne m ρ c main_arg6 (by decide) :
    W2 m ρ c (Proc.devRef .tc main_arg6) = W1 m ρ c (Proc.devRef .tc main_arg6)).trans (W1_arg6 m ρ c)
set_option maxHeartbeats 4000000 in
theorem W3_arg6 (c : Dev nD) : W3 m ρ c (Proc.devRef .tc main_arg6) = m ((c : Thread nD τ).loc main_arg6) :=
  (StableHlo.after_of_forall_not_mem (b := Proc.devRef .tc main_arg6) _ _ (List.forall_iff_forall_mem.mp (by
          simp only [main_part0_ops1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg6) = W2 m ρ c (Proc.devRef .tc main_arg6)).trans (W2_arg6 m ρ c)
set_option maxHeartbeats 4000000 in
theorem W4_arg6 (c : Dev nD) : W4 m ρ c (Proc.devRef .tc main_arg6) = m ((c : Thread nD τ).loc main_arg6) :=
  (StableHlo.after_of_forall_not_mem (b := Proc.devRef .tc main_arg6) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W4 m ρ c (Proc.devRef .tc main_arg6) = W3 m ρ c (Proc.devRef .tc main_arg6)).trans (W3_arg6 m ρ c)
theorem W5_arg6 (c : Dev nD) : W5 m ρ c (Proc.devRef .tc main_arg6) = m ((c : Thread nD τ).loc main_arg6) :=
  (W5_of_ne m ρ c main_arg6 (by decide)).trans (W4_arg6 m ρ c)

/-- THE FRAME, at any `F`: every weakly fair execution of @main terminates, nothing faulting, with the seven argument
    arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)) :=
  (θ_run defs _ _).mono (fun r h c =>
    ⟨(h c _ (mem_uc main_arg0 (by decide))).trans (W5_arg0 m ρ c),
     (h c _ (mem_uc main_arg1 (by decide))).trans (W5_arg1 m ρ c),
     (h c _ (mem_uc main_arg2 (by decide))).trans (W5_arg2 m ρ c),
     (h c _ (mem_uc main_arg3 (by decide))).trans (W5_arg3 m ρ c),
     (h c _ (mem_uc main_arg4 (by decide))).trans (W5_arg4 m ρ c),
     (h c _ (mem_uc main_arg5 (by decide))).trans (W5_arg5 m ρ c),
     (h c _ (mem_uc main_arg6 (by decide))).trans (W5_arg6 m ρ c)⟩)
    (run_all m ρ)

end Cert.KernelIdeal.Hand

end
-- ==== Proof.KI.MlpValue.lean ====
/-
  The value of region 0, the encoder, at the ideal instance. The host stretch before the region reshapes the two bias
  vectors into one-row matrices and writes the coefficient table, and writes no argument. The region's grid has 8 points;
  point t handles rows 1024 t … 1024 t + 1023: the input's row block, the two weight matrices and the two one-row biases
  whole, and the output's row block. Each point stores ONE whole output block, the payload of its loaded blocks: two
  matrix products into a zero accumulator, each followed by the bias added to every row and a clamp at zero; the
  roundings to bf16 before each product are the identity on the extended reals. So an element of the payload is
      max (Σ_k max (Σ_k' x[r,k'] · W1[k',k] + b1[k]) 0 · W2[k,c] + b2[c]) 0,
  and the reference computes exactly that, operation by operation, on the whole arrays. Row r of point t's block is row
  1024 t + r of the array; the 8 row blocks cover the output array (row i lies in block i / 1024); hence the output
  array after all 8 points IS the reference's encoder stage of the argument arrays.
-/
import proofs.«122711_j214748365383_1_alg».proof.Proof.KI.Mlp
import proofs.«122711_j214748365383_1_alg».proof.Proof.RefRead
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

section Host
variable {F : FTy → Type} [FloatOps F]

/-- What the host stretch before the region leaves in the first reshaped bias buffer: the first bias as one row. -/
theorem v0_after (W : Valuation τ sig (Elt F)) :
    StableHlo.after (Gen.hostOps0 (F := F)) W (Proc.devRef .tc main_v0)
      = shapeCast S1x256 (W (Proc.devRef .tc main_arg4)) shapeCasts_S256_S1x256 := by
  show StableHlo.after Gen.hostOps0 W (Proc.devRef .tc main_v0) = _
  after_results
  rfl

/-- In the second: the second bias as one row. -/
theorem v1_after (W : Valuation τ sig (Elt F)) :
    StableHlo.after (Gen.hostOps0 (F := F)) W (Proc.devRef .tc main_v1)
      = shapeCast S1x128 (W (Proc.devRef .tc main_arg6)) shapeCasts_S128_S1x128 := by
  show StableHlo.after Gen.hostOps0 W (Proc.devRef .tc main_v1) = _
  after_results
  rfl

/-- In the coefficient table: its five literal words. -/
theorem cst_after (W : Valuation τ sig (Elt F)) :
    StableHlo.after (Gen.hostOps0 (F := F)) W (Proc.devRef .tc main_cst)
      = (fun i => FloatOps.ofBits .f32 (lit0 (S5.rowMajor i))) := by
  show StableHlo.after Gen.hostOps0 W (Proc.devRef .tc main_cst) = _
  after_results
  rfl

end Host

section Pay

theorem dot_S1024x256_S256x256_S1024x256_1_0_0_1_n_n_lhs (r : Fin 1024) (c : Fin 256) (k : Fin 256) :
    DotDims.lhsIdx dot_S1024x256_S256x256_S1024x256_1_0_0_1_n_n (ix2 r c) ((contrEquiv1 dot_S1024x256_S256x256_S1024x256_1_0_0_1_n_n 256 rfl rfl).symm k) = ix2 r k := by
  have hk := contrEquiv1_symm_val dot_S1024x256_S256x256_S1024x256_1_0_0_1_n_n 256 rfl rfl k
  funext a; apply Fin.ext
  match a with
  | ⟨0, _⟩ =>
    show (DotDims.lhsIdx dot_S1024x256_S256x256_S1024x256_1_0_0_1_n_n (ix2 r c) _ 0).val = r.val
    unfold DotDims.lhsIdx
    rw [dif_neg (show ¬(0 : Fin S1024x256.rank) ∈ DotDims.lhsBatch dot_S1024x256_S256x256_S1024x256_1_0_0_1_n_n by decide), dif_pos (show (0 : Fin S1024x256.rank) ∈ DotDims.lhsNonContracting dot_S1024x256_S256x256_S1024x256_1_0_0_1_n_n by decide)]
    rfl
  | ⟨1, _⟩ => exact (DotDims.lhsIdx_val_of_single dot_S1024x256_S256x256_S1024x256_1_0_0_1_n_n rfl (ix2 r c) _).trans hk

theorem dot_S1024x256_S256x256_S1024x256_1_0_0_1_n_n_rhs (r : Fin 1024) (c : Fin 256) (k : Fin 256) :
    DotDims.rhsIdx dot_S1024x256_S256x256_S1024x256_1_0_0_1_n_n (ix2 r c) ((contrEquiv1 dot_S1024x256_S256x256_S1024x256_1_0_0_1_n_n 256 rfl rfl).symm k) = ix2 k c := by
  have hk := contrEquiv1_symm_val dot_S1024x256_S256x256_S1024x256_1_0_0_1_n_n 256 rfl rfl k
  funext a; apply Fin.ext
  match a with
  | ⟨0, _⟩ => exact (DotDims.rhsIdx_val_of_single dot_S1024x256_S256x256_S1024x256_1_0_0_1_n_n rfl (ix2 r c) _).trans hk
  | ⟨1, _⟩ =>
    show (DotDims.rhsIdx dot_S1024x256_S256x256_S1024x256_1_0_0_1_n_n (ix2 r c) _ 1).val = c.val
    unfold DotDims.rhsIdx
    rw [dif_neg (show ¬(1 : Fin S256x256.rank) ∈ DotDims.rhsBatch dot_S1024x256_S256x256_S1024x256_1_0_0_1_n_n by decide), dif_pos (show (1 : Fin S256x256.rank) ∈ DotDims.rhsNonContracting dot_S1024x256_S256x256_S1024x256_1_0_0_1_n_n by decide)]
    rfl

theorem dot_S1024x256_S256x128_S1024x128_1_0_0_1_n_n_lhs (r : Fin 1024) (c : Fin 128) (k : Fin 256) :
    DotDims.lhsIdx dot_S1024x256_S256x128_S1024x128_1_0_0_1_n_n (ix2 r c) ((contrEquiv1 dot_S1024x256_S256x128_S1024x128_1_0_0_1_n_n 256 rfl rfl).symm k) = ix2 r k := by
  have hk := contrEquiv1_symm_val dot_S1024x256_S256x128_S1024x128_1_0_0_1_n_n 256 rfl rfl k
  funext a; apply Fin.ext
  match a with
  | ⟨0, _⟩ =>
    show (DotDims.lhsIdx dot_S1024x256_S256x128_S1024x128_1_0_0_1_n_n (ix2 r c) _ 0).val = r.val
    unfold DotDims.lhsIdx
    rw [dif_neg (show ¬(0 : Fin S1024x256.rank) ∈ DotDims.lhsBatch dot_S1024x256_S256x128_S1024x128_1_0_0_1_n_n by decide), dif_pos (show (0 : Fin S1024x256.rank) ∈ DotDims.lhsNonContracting dot_S1024x256_S256x128_S1024x128_1_0_0_1_n_n by decide)]
    rfl
  | ⟨1, _⟩ => exact (DotDims.lhsIdx_val_of_single dot_S1024x256_S256x128_S1024x128_1_0_0_1_n_n rfl (ix2 r c) _).trans hk

theorem dot_S1024x256_S256x128_S1024x128_1_0_0_1_n_n_rhs (r : Fin 1024) (c : Fin 128) (k : Fin 256) :
    DotDims.rhsIdx dot_S1024x256_S256x128_S1024x128_1_0_0_1_n_n (ix2 r c) ((contrEquiv1 dot_S1024x256_S256x128_S1024x128_1_0_0_1_n_n 256 rfl rfl).symm k) = ix2 k c := by
  have hk := contrEquiv1_symm_val dot_S1024x256_S256x128_S1024x128_1_0_0_1_n_n 256 rfl rfl k
  funext a; apply Fin.ext
  match a with
  | ⟨0, _⟩ => exact (DotDims.rhsIdx_val_of_single dot_S1024x256_S256x128_S1024x128_1_0_0_1_n_n rfl (ix2 r c) _).trans hk
  | ⟨1, _⟩ =>
    show (DotDims.rhsIdx dot_S1024x256_S256x128_S1024x128_1_0_0_1_n_n (ix2 r c) _ 1).val = c.val
    unfold DotDims.rhsIdx
    rw [dif_neg (show ¬(1 : Fin S256x128.rank) ∈ DotDims.rhsBatch dot_S1024x256_S256x128_S1024x128_1_0_0_1_n_n by decide), dif_pos (show (1 : Fin S256x128.rank) ∈ DotDims.rhsNonContracting dot_S1024x256_S256x128_S1024x128_1_0_0_1_n_n by decide)]
    rfl

/-- A product into the zero accumulator is the plain sum over the contracted axis: the first layer's, -/
theorem mm1_apply (a : FVec Ideal S1024x256 .bf16) (b : FVec Ideal S256x256 .bf16) (r : Fin 1024) (c : Fin 256) :
    matmul dot_S1024x256_S256x256_S1024x256_1_0_0_1_n_n none a b (constant S1024x256 .f32 0x00000000#32) (ix2 r c) = ∑ k : Fin 256, a (ix2 r k) * b (ix2 k c) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  rw [dot_S1024x256_S256x256_S1024x256_1_0_0_1_n_n_lhs, dot_S1024x256_S256x256_S1024x256_1_0_0_1_n_n_rhs]

/-- and the second layer's. -/
theorem mm2_apply (a : FVec Ideal S1024x256 .bf16) (b : FVec Ideal S256x128 .bf16) (r : Fin 1024) (c : Fin 128) :
    matmul dot_S1024x256_S256x128_S1024x128_1_0_0_1_n_n none a b (constant S1024x128 .f32 0x00000000#32) (ix2 r c) = ∑ k : Fin 256, a (ix2 r k) * b (ix2 k c) := by
  simp only [matmul]
  rw [Ideal.matmul_constant_zero_apply, ← Equiv.sum_comp (contrEquiv1 dot_S1024x256_S256x128_S1024x128_1_0_0_1_n_n 256 rfl rfl).symm]
  refine Finset.sum_congr rfl fun k _ => ?_
  rw [dot_S1024x256_S256x128_S1024x128_1_0_0_1_n_n_lhs, dot_S1024x256_S256x128_S1024x128_1_0_0_1_n_n_rhs]

/-- A one-row bias broadcast over the rows reads its column. -/
theorem bc1_apply (x : FVec Ideal S1x256 .f32) (r : Fin 1024) (c : Fin 256) :
    broadcastTo S1024x256 x broadcasts_S1x256_S1024x256 (ix2 r c) = x (ix2 0 c) :=
  broadcastTo_apply x _ (ix2 r c) (ix2 0 c) (fun a => match a with
    | ⟨0, _⟩ => by show (0 : ℕ) = if (1 : ℕ) = 1 then 0 else _; rw [if_pos rfl]
    | ⟨1, _⟩ => by show c.val = if (256 : ℕ) = 1 then 0 else c.val; rw [if_neg (by decide)])

theorem bc2_apply (x : FVec Ideal S1x128 .f32) (r : Fin 1024) (c : Fin 128) :
    broadcastTo S1024x128 x broadcasts_S1x128_S1024x128 (ix2 r c) = x (ix2 0 c) :=
  broadcastTo_apply x _ (ix2 r c) (ix2 0 c) (fun a => match a with
    | ⟨0, _⟩ => by show (0 : ℕ) = if (1 : ℕ) = 1 then 0 else _; rw [if_pos rfl]
    | ⟨1, _⟩ => by show c.val = if (128 : ℕ) = 1 then 0 else c.val; rw [if_neg (by decide)])

/-- The encoder's payload at row `r`, column `c` of its block: two affine layers, each clamped at zero. -/
theorem pay_apply (x0 : Vec Ideal S1024x256 .f32) (x1 : Vec Ideal S256x256 .f32) (x2 : Vec Ideal S1x256 .f32)
    (x3 : Vec Ideal S256x128 .f32) (x4 : Vec Ideal S1x128 .f32) (r : Fin 1024) (c : Fin 128) :
    k0_pay1 (F := Ideal) x0 x1 x2 x3 x4 (ix2 r c)
      = max ((∑ k : Fin 256, max ((∑ k' : Fin 256, x0 (ix2 r k') * x1 (ix2 k' k)) + x2 (ix2 0 k)) 0 * x3 (ix2 k c)) + x4 (ix2 0 c)) 0 := by
  unfold k0_pay1
  simp only [shapeCast_self]
  rw [maximumf_apply, addf_apply, mm2_apply, bc2_apply, broadcast_apply]
  refine congrArg₂ max (congrArg₂ (· + ·) (Finset.sum_congr rfl fun k _ => ?_) rfl) Ideal.ofBits_zero_f32
  rw [truncf_apply, truncf_apply, maximumf_apply, addf_apply, mm1_apply, bc1_apply, broadcast_apply]
  refine congrArg₂ (· * ·) (congrArg₂ max (congrArg₂ (· + ·) (Finset.sum_congr rfl fun k' _ => ?_) rfl) Ideal.ofBits_zero_f32) rfl
  rw [truncf_apply, truncf_apply]

end Pay

section Blocks
variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the input rows and the output rows move with the point, the weights and
    biases stay at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `r` of the input's block at point `t` is row `1024 t + r` of the input. -/
theorem blk0_0_apply (c : Dev nD) (t : Fin cfg0.N) (r : Fin 1024) (k : Fin 256) (i : S8192x256.Idx)
    (h0 : (i 0).val = t.val * 1024 + r.val) (h1 : (i 1).val = k.val) :
    blk0 V c 0 t (ix2 r k) = V c main_arg0 i := by
  obtain ⟨e0, e1, -⟩ := idx_facts0 t
  unfold blk0
  rw [View.read_apply]
  show V c main_arg0 _ = V c main_arg0 i
  congr 1
  funext a; apply Fin.ext
  match a with
  | ⟨0, _⟩ => show win0_0.index t (0 : Fin 2) * 1024 + 1 * r.val = (i 0).val; rw [e0, h0]; omega
  | ⟨1, _⟩ => show win0_0.index t (1 : Fin 2) * 256 + 1 * k.val = (i 1).val; rw [e1, h1]; omega

/-- The first layer's weights are fetched whole. -/
theorem blk0_1_apply (c : Dev nD) (t : Fin cfg0.N) (j : S256x256.Idx) : blk0 V c 1 t j = V c main_arg3 j := by
  obtain ⟨-, -, e0, e1, -⟩ := idx_facts0 t
  unfold blk0
  rw [View.read_apply]
  show V c main_arg3 _ = V c main_arg3 j
  congr 1
  funext a; apply Fin.ext
  match a with
  | ⟨0, _⟩ => show win0_1.index t (0 : Fin 2) * 256 + 1 * (j 0).val = (j 0).val; rw [e0]; omega
  | ⟨1, _⟩ => show win0_1.index t (1 : Fin 2) * 256 + 1 * (j 1).val = (j 1).val; rw [e1]; omega

theorem blk0_2_apply (c : Dev nD) (t : Fin cfg0.N) (j : S1x256.Idx) : blk0 V c 2 t j = V c main_v0 j := by
  obtain ⟨-, -, -, -, e0, e1, -⟩ := idx_facts0 t
  unfold blk0
  rw [View.read_apply]
  show V c main_v0 _ = V c main_v0 j
  congr 1
  funext a; apply Fin.ext
  match a with
  | ⟨0, _⟩ => show win0_2.index t (0 : Fin 2) * 1 + 1 * (j 0).val = (j 0).val; rw [e0]; omega
  | ⟨1, _⟩ => show win0_2.index t (1 : Fin 2) * 256 + 1 * (j 1).val = (j 1).val; rw [e1]; omega

theorem blk0_3_apply (c : Dev nD) (t : Fin cfg0.N) (j : S256x128.Idx) : blk0 V c 3 t j = V c main_arg5 j := by
  obtain ⟨-, -, -, -, -, -, e0, e1, -⟩ := idx_facts0 t
  unfold blk0
  rw [View.read_apply]
  show V c main_arg5 _ = V c main_arg5 j
  congr 1
  funext a; apply Fin.ext
  match a with
  | ⟨0, _⟩ => show win0_3.index t (0 : Fin 2) * 256 + 1 * (j 0).val = (j 0).val; rw [e0]; omega
  | ⟨1, _⟩ => show win0_3.index t (1 : Fin 2) * 128 + 1 * (j 1).val = (j 1).val; rw [e1]; omega

theorem blk0_4_apply (c : Dev nD) (t : Fin cfg0.N) (j : S1x128.Idx) : blk0 V c 4 t j = V c main_v1 j := by
  obtain ⟨-, -, -, -, -, -, -, -, e0, e1, -⟩ := idx_facts0 t
  unfold blk0
  rw [View.read_apply]
  show V c main_v1 _ = V c main_v1 j
  congr 1
  funext a; apply Fin.ext
  match a with
  | ⟨0, _⟩ => show win0_4.index t (0 : Fin 2) * 1 + 1 * (j 0).val = (j 0).val; rw [e0]; omega
  | ⟨1, _⟩ => show win0_4.index t (1 : Fin 2) * 128 + 1 * (j 1).val = (j 1).val; rw [e1]; omega

/-- An index of the output array is in point `t`'s block iff each coordinate is in the block's range on its axis. -/
theorem mem_blk5 (t : Fin cfg0.N) (i : S8192x128.Idx) :
    i ∈ ((cfg0.win 5).blk t).view.set ↔ ∀ a : Fin 2, win0_5.index t a * S1024x128.size a ≤ (i a).val ∧ (i a).val < win0_5.index t a * S1024x128.size a + S1024x128.size a := by
  show i ∈ ((View.whole main_v2).slice (win0_5.rect t)).set ↔ _
  rw [View.set_slice_whole, Rect.mem_set_unit]
  exact Iff.rfl

/-- Every row of the output is in the block of the point its row index divided by 1024 names. -/
theorem cover5 (i : S8192x128.Idx) : ∃ t : Fin cfg0.N, (cfg0.win 5).flush t = true ∧ i ∈ ((cfg0.win 5).blk t).view.set := by
  have hi0 : (i 0).val < 8192 := (i 0).isLt
  have hi1 : (i 1).val < 128 := (i 1).isLt
  have hN : grid0.N = 8 := N_0
  let t : Fin cfg0.N := ⟨(i 0).val / 1024, by show (i 0).val / 1024 < grid0.N; rw [hN]; omega⟩
  have ht : t.val = (i 0).val / 1024 := rfl
  obtain ⟨-, -, -, -, -, -, -, -, -, -, e0, e1⟩ := idx_facts0 t
  refine ⟨t, flush0_5 t, ?_⟩
  rw [mem_blk5]
  intro a
  match a with
  | ⟨0, _⟩ => show win0_5.index t (0 : Fin 2) * 1024 ≤ (i 0).val ∧ (i 0).val < win0_5.index t (0 : Fin 2) * 1024 + 1024; rw [e0, ht]; omega
  | ⟨1, _⟩ => show win0_5.index t (1 : Fin 2) * 128 ≤ (i 1).val ∧ (i 1).val < win0_5.index t (1 : Fin 2) * 128 + 128; rw [e1]; omega

end Blocks

section Core
open Cert.ReferenceIdeal.ReadP

/-- One element of the payload of blocks that are the arrays' restrictions is the reference's encoder stage at the
    element's place in the array: the same two sums, the same biases, the same clamps. -/
theorem enc_core (X : (⟨S8192x256, .f32⟩ : BufTy).Contents (Elt Ideal)) (W1 : (⟨S256x256, .f32⟩ : BufTy).Contents (Elt Ideal))
    (a4 : (⟨S256, .f32⟩ : BufTy).Contents (Elt Ideal)) (W2 : (⟨S256x128, .f32⟩ : BufTy).Contents (Elt Ideal))
    (a6 : (⟨S128, .f32⟩ : BufTy).Contents (Elt Ideal))
    (x0 : Vec Ideal S1024x256 .f32) (x1 : Vec Ideal S256x256 .f32) (x2 : Vec Ideal S1x256 .f32)
    (x3 : Vec Ideal S256x128 .f32) (x4 : Vec Ideal S1x128 .f32)
    (T : ℕ) (r : Fin 1024) (c : Fin 128) (i : S8192x128.Idx)
    (hi0 : (i 0).val = T * 1024 + r.val) (hi1 : (i 1).val = c.val)
    (h0 : ∀ (k : Fin 256) (i' : S8192x256.Idx), (i' 0).val = T * 1024 + r.val → (i' 1).val = k.val → x0 (ix2 r k) = X i')
    (h1 : ∀ j, x1 j = W1 j) (h2 : ∀ k : Fin 256, x2 (ix2 0 k) = a4 (ix1 k))
    (h3 : ∀ j, x3 j = W2 j) (h4 : ∀ k : Fin 128, x4 (ix2 0 k) = a6 (ix1 k)) :
    k0_pay1 (F := Ideal) x0 x1 x2 x3 x4 (ix2 r c) = val_main_v18 (F := Ideal) X W1 a4 W2 a6 i := by
  rw [pay_apply, val_main_v18_apply, val_main_v17_apply, val_main_v14_apply, val_main_v16_apply, val_main_v15_apply,
    val_main_call1_v0_apply, val_main_call1_cst_apply]
  refine congrArg₂ max (congrArg₂ (· + ·) (Finset.sum_congr rfl fun k _ => ?_) ?_) Ideal.ofBits_zero_f32.symm
  · rw [val_main_v13_apply, val_main_v12_apply, val_main_v9_apply, val_main_v11_apply, val_main_v10_apply,
      val_main_call0_v0_apply, val_main_call0_cst_apply]
    refine congrArg₂ (· * ·) (congrArg₂ max (congrArg₂ (· + ·) (Finset.sum_congr rfl fun k' _ => ?_) ?_) Ideal.ofBits_zero_f32.symm) ?_
    · rw [h0 k' (lidx_main_v9 (lidx_main_v14 i k) k') hi0 rfl, h1]
      refine congrArg (_ * W1 ·) (funext fun a => ?_)
      match a with
      | ⟨0, _⟩ => rfl
      | ⟨1, _⟩ => rfl
    · rw [h2]
      refine congrArg a4 (funext fun a => ?_)
      match a with
      | ⟨0, _⟩ => rfl
    · rw [h3]
      refine congrArg W2 (funext fun a => ?_)
      match a with
      | ⟨0, _⟩ => rfl
      | ⟨1, _⟩ => exact Fin.ext hi1.symm
  · rw [h4]
    refine congrArg a6 (funext fun a => ?_)
    match a with
    | ⟨0, _⟩ => exact Fin.ext hi1.symm

end Core

section Final
open Cert.ReferenceIdeal.ReadP
variable (V : (c : Dev nD) → (b : Ref sig .tc) → Buf (Elt Ideal) ((c : Thread nD τ).loc b))

/-- What point `t` writes back is block `t` of the reference's encoder stage of the argument arrays. -/
theorem flushed5_eq (c : Dev nD) (a4 : FVec Ideal S256 .f32) (a6 : FVec Ideal S128 .f32)
    (h0 : V c main_v0 = shapeCast S1x256 a4 shapeCasts_S256_S1x256) (h1 : V c main_v1 = shapeCast S1x128 a6 shapeCasts_S128_S1x128)
    (t : Fin cfg0.N) :
    (dat0 V c).flushed 5 t = ((cfg0.win 5).blk t).view.read (Elt Ideal)
      (val_main_v18 (F := Ideal) (V c main_arg0) (V c main_arg3) a4 (V c main_arg5) a6) := by
  show (cfg0.win 5).cut (grid0.coords t) ((dat0 V c).after 5 t) = _
  rw [after0_5]
  unfold out0
  rw [View.canon_unit_zero hz2]
  simp only [View.ld_unit_zero (S := S1024x256) hz2, View.ld_unit_zero (S := S256x256) hz2, View.ld_unit_zero (S := S1x256) hz2,
    View.ld_unit_zero (S := S256x128) hz2, View.ld_unit_zero (S := S1x128) hz2]
  obtain ⟨-, -, -, -, -, -, -, -, -, -, e0, e1⟩ := idx_facts0 t
  funext j
  obtain ⟨r, cc, rfl⟩ : ∃ (r : Fin 1024) (cc : Fin 128), j = ix2 r cc := ⟨j 0, j 1, eq_ix2 j⟩
  rw [View.read_apply]
  refine enc_core _ _ a4 _ a6 _ _ _ _ _ t.val r cc _ ?_ ?_ (fun k i' hi0 hi1 => blk0_0_apply V c t r k i' hi0 hi1)
    (blk0_1_apply V c t) (fun k => ?_) (blk0_3_apply V c t) (fun k => ?_)
  · show win0_5.index t (0 : Fin 2) * 1024 + 1 * r.val = t.val * 1024 + r.val; rw [e0]; omega
  · show win0_5.index t (1 : Fin 2) * 128 + 1 * cc.val = cc.val; rw [e1]; omega
  · rw [blk0_2_apply, h0]; exact shapeCast_a_1a_apply a4 _ 0 k
  · rw [blk0_4_apply, h1]; exact shapeCast_a_1a_apply a6 _ 0 k

/-- THE VALUE: after all 8 points the output array holds the reference's encoder stage of the argument arrays. -/
theorem mlp_arr (c : Dev nD) (a4 : FVec Ideal S256 .f32) (a6 : FVec Ideal S128 .f32)
    (h0 : V c main_v0 = shapeCast S1x256 a4 shapeCasts_S256_S1x256) (h1 : V c main_v1 = shapeCast S1x128 a6 shapeCasts_S128_S1x128) :
    (dat0 V c).arrAt 5 cfg0.N = val_main_v18 (F := Ideal) (V c main_arg0) (V c main_arg3) a4 (V c main_arg5) a6 :=
  (dat0 V c).arrAt_eq_of_cover 5 _ (fun t _ => flushed5_eq V c a4 a6 h0 h1 t) cover5

end Final

end Cert.KernelIdeal.Hand

end
-- ==== Proof.KI.AatValue.lean ====
/-
  Region 1 of @main, its value: the self-similarity kernel leaves in its output the product of its input matrix A
  (8192 × 128) with A's own transpose. The 8 × 8 grid's point t = 8 i + j multiplies row block i of A by the transpose of
  row block j (1024 rows each, the contraction over all 128 columns inside the block) and writes block (i, j) of the
  product; at the ideal values the roundings are the identity and the product into a zero accumulator is the plain
  sum, so entry (p, q) of the block is Σ_k A(1024 i + p, k) · A(1024 j + q, k), which is entry (1024 i + p, 1024 j + q)
  of A · Aᵀ; the 64 blocks tile the 8192 × 8192 product, and the reference's dot_general of A with its transpose reads at
  entry (r, s) as the same sum Σ_k A(r, k) · A(s, k).
-/
import proofs.«122711_j214748365383_1_alg».proof.Proof.KI.Aat
import proofs.«122711_j214748365383_1_alg».proof.ReferenceIdeal
import proofs.«122711_j214748365383_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The block product at an entry -/

theorem klhs_0 (j : S1024x1024.Idx) (q : dot_S1024x128_S1024x128_S1024x1024_1_1_0_0_n_n.contr.Idx) :
    (dot_S1024x128_S1024x128_S1024x1024_1_1_0_0_n_n.lhsIdx j q 0).val = (j 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
theorem klhs_1 (j : S1024x1024.Idx) (q : dot_S1024x128_S1024x128_S1024x1024_1_1_0_0_n_n.contr.Idx) :
    (dot_S1024x128_S1024x128_S1024x1024_1_1_0_0_n_n.lhsIdx j q 1).val = (q ⟨0, by decide⟩).val :=
  dot_S1024x128_S1024x128_S1024x1024_1_1_0_0_n_n.lhsIdx_val_of_single rfl j q
theorem krhs_0 (j : S1024x1024.Idx) (q : dot_S1024x128_S1024x128_S1024x1024_1_1_0_0_n_n.contr.Idx) :
    (dot_S1024x128_S1024x128_S1024x1024_1_1_0_0_n_n.rhsIdx j q 0).val = (j 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
theorem krhs_1 (j : S1024x1024.Idx) (q : dot_S1024x128_S1024x128_S1024x1024_1_1_0_0_n_n.contr.Idx) :
    (dot_S1024x128_S1024x128_S1024x1024_1_1_0_0_n_n.rhsIdx j q 1).val = (q ⟨0, by decide⟩).val :=
  dot_S1024x128_S1024x128_S1024x1024_1_1_0_0_n_n.rhsIdx_val_of_single rfl j q

/-- Entry (p, q) of the block product is the sum over the 128 columns of row p of the first block times row q of the second. -/
theorem pay1_apply (x y : Vec Ideal S1024x128 .f32) (p q : Fin 1024) :
    k1_pay1 (F := Ideal) x y (ix2 p q) = ∑ k : Fin 128, x (ix2 p k) * y (ix2 q k) := by
  unfold k1_pay1
  simp only [shapeCast_self]
  refine (Ideal.matmul_constant_zero_apply dot_S1024x128_S1024x128_S1024x1024_1_1_0_0_n_n none _ _ (ix2 p q)).trans ?_
  rw [← Equiv.sum_comp (contrEquiv1 dot_S1024x128_S1024x128_S1024x1024_1_1_0_0_n_n 128 rfl rfl).symm]
  refine Finset.sum_congr rfl fun k _ => ?_
  have hk := contrEquiv1_symm_val dot_S1024x128_S1024x128_S1024x1024_1_1_0_0_n_n 128 rfl rfl k
  have el : dot_S1024x128_S1024x128_S1024x1024_1_1_0_0_n_n.lhsIdx (ix2 p q) ((contrEquiv1 dot_S1024x128_S1024x128_S1024x1024_1_1_0_0_n_n 128 rfl rfl).symm k) = ix2 p k := funext fun a => Fin.ext (by
    match a with
    | ⟨0, _⟩ => exact klhs_0 _ _
    | ⟨1, _⟩ => exact (klhs_1 _ _).trans hk)
  have er : dot_S1024x128_S1024x128_S1024x1024_1_1_0_0_n_n.rhsIdx (ix2 p q) ((contrEquiv1 dot_S1024x128_S1024x128_S1024x1024_1_1_0_0_n_n 128 rfl rfl).symm k) = ix2 q k := funext fun a => Fin.ext (by
    match a with
    | ⟨0, _⟩ => exact krhs_0 _ _
    | ⟨1, _⟩ => exact (krhs_1 _ _).trans hk)
  rw [el, er]
  rfl

/-! ## The reference's product at an entry -/

theorem rlhs_0 (i : Cert.ReferenceIdeal.S8192x8192.Idx) (q : Cert.ReferenceIdeal.dot_S8192x128_S128x8192_S8192x8192_1_0_0_1_n_n.contr.Idx) :
    (Cert.ReferenceIdeal.dot_S8192x128_S128x8192_S8192x8192_1_0_0_1_n_n.lhsIdx i q 0).val = (i 0).val := by
  unfold DotDims.lhsIdx
  rw [dif_neg (show ¬(0 : Fin Cert.ReferenceIdeal.S8192x128.rank) ∈ Cert.ReferenceIdeal.dot_S8192x128_S128x8192_S8192x8192_1_0_0_1_n_n.lhsBatch by decide), dif_pos (show (0 : Fin Cert.ReferenceIdeal.S8192x128.rank) ∈ Cert.ReferenceIdeal.dot_S8192x128_S128x8192_S8192x8192_1_0_0_1_n_n.lhsNonContracting by decide)]
  rfl
theorem rlhs_1 (i : Cert.ReferenceIdeal.S8192x8192.Idx) (q : Cert.ReferenceIdeal.dot_S8192x128_S128x8192_S8192x8192_1_0_0_1_n_n.contr.Idx) :
    (Cert.ReferenceIdeal.dot_S8192x128_S128x8192_S8192x8192_1_0_0_1_n_n.lhsIdx i q 1).val = (q ⟨0, by decide⟩).val :=
  Cert.ReferenceIdeal.dot_S8192x128_S128x8192_S8192x8192_1_0_0_1_n_n.lhsIdx_val_of_single rfl i q
theorem rrhs_0 (i : Cert.ReferenceIdeal.S8192x8192.Idx) (q : Cert.ReferenceIdeal.dot_S8192x128_S128x8192_S8192x8192_1_0_0_1_n_n.contr.Idx) :
    (Cert.ReferenceIdeal.dot_S8192x128_S128x8192_S8192x8192_1_0_0_1_n_n.rhsIdx i q 0).val = (q ⟨0, by decide⟩).val :=
  Cert.ReferenceIdeal.dot_S8192x128_S128x8192_S8192x8192_1_0_0_1_n_n.rhsIdx_val_of_single rfl i q
theorem rrhs_1 (i : Cert.ReferenceIdeal.S8192x8192.Idx) (q : Cert.ReferenceIdeal.dot_S8192x128_S128x8192_S8192x8192_1_0_0_1_n_n.contr.Idx) :
    (Cert.ReferenceIdeal.dot_S8192x128_S128x8192_S8192x8192_1_0_0_1_n_n.rhsIdx i q 1).val = (i 1).val := by
  unfold DotDims.rhsIdx
  rw [dif_neg (show ¬(1 : Fin Cert.ReferenceIdeal.S128x8192.rank) ∈ Cert.ReferenceIdeal.dot_S8192x128_S128x8192_S8192x8192_1_0_0_1_n_n.rhsBatch by decide), dif_pos (show (1 : Fin Cert.ReferenceIdeal.S128x8192.rank) ∈ Cert.ReferenceIdeal.dot_S8192x128_S128x8192_S8192x8192_1_0_0_1_n_n.rhsNonContracting by decide)]
  rfl

/-- Entry (r, s) of the matrix times its own transpose is the sum over the 128 columns of row r times row s. -/
theorem ref_apply (A : Cert.ReferenceIdeal.S8192x128.Idx → Elt Ideal .f32) (r s : Fin 8192) :
    Host.dotGeneral (F := Ideal) (sl := Cert.ReferenceIdeal.S8192x128) (φ₁ := .f32) (φ₂ := .f32)
        Cert.ReferenceIdeal.dot_S8192x128_S128x8192_S8192x8192_1_0_0_1_n_n none A
        (transpose (s := Cert.ReferenceIdeal.S8192x128) (α := Elt Ideal .f32) Cert.ReferenceIdeal.S128x8192 [1, 0] A
          Cert.ReferenceIdeal.Gen.transposes_S8192x128_S128x8192_1_0) (ix2 r s)
      = ∑ k : Fin 128, A (ix2 r k) * A (ix2 s k) := by
  have hB : ∀ k : Fin 128, transpose Cert.ReferenceIdeal.S128x8192 [1, 0] A Cert.ReferenceIdeal.Gen.transposes_S8192x128_S128x8192_1_0 (ix2 k s) = A (ix2 s k) := fun k =>
    transpose_apply [1, 0] A Cert.ReferenceIdeal.Gen.transposes_S8192x128_S128x8192_1_0 (ix2 k s) (ix2 s k) (fun b => match b with
      | ⟨0, _⟩ => rfl
      | ⟨1, _⟩ => rfl)
  simp only [Host.dotGeneral]
  rw [Ideal.dotGeneral_apply, ← Equiv.sum_comp (contrEquiv1 Cert.ReferenceIdeal.dot_S8192x128_S128x8192_S8192x8192_1_0_0_1_n_n 128 rfl rfl).symm]
  refine Finset.sum_congr rfl fun k _ => ?_
  have hk := contrEquiv1_symm_val Cert.ReferenceIdeal.dot_S8192x128_S128x8192_S8192x8192_1_0_0_1_n_n 128 rfl rfl k
  have el : Cert.ReferenceIdeal.dot_S8192x128_S128x8192_S8192x8192_1_0_0_1_n_n.lhsIdx (ix2 r s) ((contrEquiv1 Cert.ReferenceIdeal.dot_S8192x128_S128x8192_S8192x8192_1_0_0_1_n_n 128 rfl rfl).symm k) = ix2 r k := funext fun a => Fin.ext (by
    match a with
    | ⟨0, _⟩ => exact rlhs_0 _ _
    | ⟨1, _⟩ => exact (rlhs_1 _ _).trans hk)
  have er : Cert.ReferenceIdeal.dot_S8192x128_S128x8192_S8192x8192_1_0_0_1_n_n.rhsIdx (ix2 r s) ((contrEquiv1 Cert.ReferenceIdeal.dot_S8192x128_S128x8192_S8192x8192_1_0_0_1_n_n 128 rfl rfl).symm k) = ix2 k s := funext fun a => Fin.ext (by
    match a with
    | ⟨0, _⟩ => exact (rrhs_0 _ _).trans hk
    | ⟨1, _⟩ => exact rrhs_1 _ _)
  rw [el, er, hB k]

/-! ## The grid's blocks tile the product -/

variable (V : (c : Dev nD) → (b : Ref sig .tc) → Buf (Elt Ideal) ((c : Thread nD τ).loc b))

theorem hz1 : (![0, 0] : Fin 2 → Nat) = fun _ => 0 := funext fun a => by fin_cases a <;> rfl

/-- The matrix times its own transpose, entry by entry: entry (r, s) is the sum over the 128 columns of row r times row s. -/
def gram (A : S8192x128.Idx → Elt Ideal .f32) : S8192x8192.Idx → Elt Ideal .f32 :=
  fun i => ∑ k : Fin 128, A (ix2 (i 0) k) * A (ix2 (i 1) k)

/-- When row p of the first block is row r of the matrix and row q of the second block is its row s, entry (p, q) of the
    block product is entry (r, s) of the matrix times its transpose. -/
theorem pay1_eq_gram (A : S8192x128.Idx → Elt Ideal .f32) (x y : Vec Ideal S1024x128 .f32) (p q : Fin 1024) (r s : Fin 8192)
    (hx : ∀ k : Fin 128, x (ix2 p k) = A (ix2 r k)) (hy : ∀ k : Fin 128, y (ix2 q k) = A (ix2 s k)) :
    k1_pay1 (F := Ideal) x y (ix2 p q) = gram A (ix2 r s) :=
  (pay1_apply x y p q).trans (Finset.sum_congr rfl fun k _ => by rw [hx k, hy k])

/-- Point t = 8 i + j of the 8 × 8 grid reads row blocks i and j of the matrix and writes block (i, j) of the product. -/
theorem idx_facts1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = t.val % 8 :=
  (by decide +kernel : ∀ t : Fin grid1.N, _)

/-- What point t writes back is block t of the product. -/
theorem flushed1_eq (c : Dev nD) (t : Fin cfg1.N) :
    (dat1 V c).flushed 2 t = ((cfg1.win 2).blk t).view.read (Elt Ideal) (gram (V c main_v95)) := by
  show (cfg1.win 2).cut (grid1.coords t) ((dat1 V c).after 2 t) = _
  rw [after1_2]
  unfold out1
  rw [View.canon_unit_zero hz1]
  simp only [View.ld_unit_zero (S := S1024x128) hz1]
  obtain ⟨e00, e01, e10, e11, e20, e21⟩ := idx_facts1 t
  funext j
  show k1_pay1 (F := Ideal) (blk1 V c 0 t) (blk1 V c 1 t) (ix2 (j 0) (j 1)) = gram (V c main_v95) (((cfg1.win 2).blk t).view.emb j)
  refine (pay1_eq_gram (V c main_v95) (blk1 V c 0 t) (blk1 V c 1 t) (j 0) (j 1) ((((cfg1.win 2).blk t).view.emb j) 0) ((((cfg1.win 2).blk t).view.emb j) 1)
    (fun k => ?_) (fun k => ?_)).trans (congrArg (gram (V c main_v95)) (eq_ix2 (((cfg1.win 2).blk t).view.emb j)).symm)
  · show V c main_v95 (((cfg1.win 0).blk t).view.emb (ix2 (j 0) k)) = _
    refine congrArg (V c main_v95) (funext fun a => Fin.ext ?_)
    match a with
    | ⟨0, _⟩ => show win1_0.index t (0 : Fin 2) * 1024 + 1 * (j 0).val = win1_2.index t (0 : Fin 2) * 1024 + 1 * (j 0).val; rw [e00, e20]
    | ⟨1, _⟩ => show win1_0.index t (1 : Fin 2) * 128 + 1 * k.val = k.val; rw [e01]; omega
  · show V c main_v95 (((cfg1.win 1).blk t).view.emb (ix2 (j 1) k)) = _
    refine congrArg (V c main_v95) (funext fun a => Fin.ext ?_)
    match a with
    | ⟨0, _⟩ => show win1_1.index t (0 : Fin 2) * 1024 + 1 * (j 1).val = win1_2.index t (1 : Fin 2) * 1024 + 1 * (j 1).val; rw [e10, e21]
    | ⟨1, _⟩ => show win1_1.index t (1 : Fin 2) * 128 + 1 * k.val = k.val; rw [e11]; omega
/-- An entry of the product is in point t's block iff each coordinate is in the block's range on its axis. -/
theorem mem_blk1_2 (t : Fin cfg1.N) (i : S8192x8192.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v96).slice (win1_2.rect t)).set ↔ _
  rw [View.set_slice_whole, Rect.mem_set_unit]
  exact Iff.rfl

/-- Entry (r, s) is in the block of point 8 (r / 1024) + s / 1024. -/
theorem cover1_2 (i : S8192x8192.Idx) : ∃ t : Fin cfg1.N, (cfg1.win 2).flush t = true ∧ i ∈ ((cfg1.win 2).blk t).view.set := by
  have hi0 : (i 0).val < 8192 := (i 0).isLt
  have hi1 : (i 1).val < 8192 := (i 1).isLt
  have hN : cfg1.N = 64 := N_1
  have ht : (i 0).val / 1024 * 8 + (i 1).val / 1024 < cfg1.N := by rw [hN]; omega
  obtain ⟨-, -, -, -, e20, e21⟩ := idx_facts1 ⟨(i 0).val / 1024 * 8 + (i 1).val / 1024, ht⟩
  refine ⟨⟨(i 0).val / 1024 * 8 + (i 1).val / 1024, ht⟩, flush1_2 _, ?_⟩
  rw [mem_blk1_2]
  intro a
  match a with
  | ⟨0, _⟩ =>
    show win1_2.index ⟨(i 0).val / 1024 * 8 + (i 1).val / 1024, ht⟩ (0 : Fin 2) * 1024 ≤ (i 0).val ∧ (i 0).val < win1_2.index ⟨(i 0).val / 1024 * 8 + (i 1).val / 1024, ht⟩ (0 : Fin 2) * 1024 + 1024
    rw [e20]
    show ((i 0).val / 1024 * 8 + (i 1).val / 1024) / 8 * 1024 ≤ (i 0).val ∧ (i 0).val < ((i 0).val / 1024 * 8 + (i 1).val / 1024) / 8 * 1024 + 1024
    omega
  | ⟨1, _⟩ =>
    show win1_2.index ⟨(i 0).val / 1024 * 8 + (i 1).val / 1024, ht⟩ (1 : Fin 2) * 1024 ≤ (i 1).val ∧ (i 1).val < win1_2.index ⟨(i 0).val / 1024 * 8 + (i 1).val / 1024, ht⟩ (1 : Fin 2) * 1024 + 1024
    rw [e21]
    show ((i 0).val / 1024 * 8 + (i 1).val / 1024) % 8 * 1024 ≤ (i 1).val ∧ (i 1).val < ((i 0).val / 1024 * 8 + (i 1).val / 1024) % 8 * 1024 + 1024
    omega

/-! ## The array after the region -/

/-- After all 64 points the output holds the matrix times its own transpose: every block written is the product's
    restriction, the blocks cover it, and the reference's product read at an entry is the same sum. -/
theorem aat_arr (c : Dev nD) :
    (dat1 V c).arrAt 2 cfg1.N
      = Host.dotGeneral (F := Ideal) (sl := Cert.ReferenceIdeal.S8192x128) (φ₁ := .f32) (φ₂ := .f32)
          Cert.ReferenceIdeal.dot_S8192x128_S128x8192_S8192x8192_1_0_0_1_n_n none (V c main_v95)
          (transpose (s := Cert.ReferenceIdeal.S8192x128) (α := Elt Ideal .f32) Cert.ReferenceIdeal.S128x8192 [1, 0] (V c main_v95)
            Cert.ReferenceIdeal.Gen.transposes_S8192x128_S128x8192_1_0) := by
  refine ((dat1 V c).arrAt_eq_of_cover 2 (gram (V c main_v95)) (fun t _ => flushed1_eq V c t) cover1_2).trans ?_
  funext i
  obtain ⟨r, s, rfl⟩ : ∃ r s : Fin 8192, i = ix2 r s := ⟨i 0, i 1, eq_ix2 i⟩
  exact (ref_apply (V c main_v95) r s).symm

end Cert.KernelIdeal.Hand

end
-- ==== Proof.KI.Glue.lean ====
/-
  The host side of the kernel's program between its two kernels, read as one function and met with the
  reference's.

  From the encoder's output h (8192 × 128), the edge lists src, dst (262144 each) and a five-entry coefficient
  table, the program computes the degree normalisation d = max(deg, 1)^(-1/2), deg counting the edges by source,
  then four rounds p ← p − scatter_add(dst, gather(p·d, src))·d from p₀ = h, and the combination
  Σ_k c_k · p_k, k = 0 … 4. The reference computes the same, operation for operation, from its own h; it writes
  each coefficient as a scalar constant where the kernel's program slices the table, reshapes the one-element
  slice to a scalar and repeats it.

  `glue` is the combination as a function of the five repeated coefficients, h and the edge lists, at any float
  values. The program's two stretches of operations compose to `glue` at the sliced coefficients (`K_glue`); the
  reference's stages compose to `glue` at the constant coefficients (`R_glue`); a slice of the literal table
  [5, 0, 0, 0, 0] is its word (`coefOf_lit`). `allh_of_h` chains the three at the ideal values.
-/
import proofs.«122711_j214748365383_1_alg».proof.Proof.Gen.KernelIdeal.Launch
import proofs.«122711_j214748365383_1_alg».proof.Proof.RefRead
import Idealize.ShloMosaic.Lib.StableHlo.Run
import Idealize.ShloMosaic.Lib.Pipeline.Frame
import Idealize.ShloMosaic.Lib.Pipeline.Value
import Idealize.ShloMosaic.PureOps.Ideal

noncomputable section

namespace Cert.KernelIdeal.Hand

open Cert.KernelIdeal Cert.KernelIdeal.Gen Idealize.ShloMosaic Idealize.ShloMosaic.TcCoe Idealize.SL.Sem

variable {F : FTy → Type} [FloatOps F]

/-- The broadcast of the inverse square root of the clamped in-degree: d = max(deg, 1)^(-1/2), deg the count of
    edges whose source is the node, as a column. -/
def dnorm (src : (⟨S262144, .i32⟩ : BufTy).Contents (Elt F)) : (⟨S8192x1, .f32⟩ : BufTy).Contents (Elt F) :=
  broadcastInDim S8192x1 ![0] bcast_S8192_S8192x1_0
    (Host.powf
      (maximumf
        (Host.scatterAdd scatter_S8192_S262144x1_S262144_n_0_0_1
          (broadcastInDim S8192 ![] bcast_S_S8192 (constant S_ .f32 0x00000000#32))
          (broadcastInDim S262144x1 ![0] bcast_S262144_S262144x1_0 src)
          (broadcastInDim S262144 ![] bcast_S_S262144 (constant S_ .f32 0x3F800000#32)))
        (broadcastInDim S8192 ![] bcast_S_S8192 (constant S_ .f32 0x3F800000#32)))
      (broadcastInDim S8192 ![] bcast_S_S8192 (constant S_ .f32 0xBF000000#32)))

/-- The column d repeated along the feature axis. -/
def dcols (d : (⟨S8192x1, .f32⟩ : BufTy).Contents (Elt F)) : (⟨S8192x128, .f32⟩ : BufTy).Contents (Elt F) :=
  broadcastInDim S8192x128 ![0, 1] bcast_S8192x1_S8192x128_0_1 d

/-- The gather's start indices: a negative source index wraps by the node count. -/
def srcIdx (src : (⟨S262144, .i32⟩ : BufTy).Contents (Elt F)) : (⟨S262144x1, .i32⟩ : BufTy).Contents (Elt F) :=
  broadcastInDim S262144x1 ![0] bcast_S262144_S262144x1_0
    (select (cmpi .slt src (broadcastInDim S262144 ![] bcast_S_S262144 (constantI S_ 32 0#32)))
      (addi src (broadcastInDim S262144 ![] bcast_S_S262144 (constantI S_ 32 8192#32))) src)

/-- scatter_add(dst, gather(q, src)) from zero: each node's sum of q over its incoming edges' sources. -/
def agg (src dst : (⟨S262144, .i32⟩ : BufTy).Contents (Elt F)) (q : (⟨S8192x128, .f32⟩ : BufTy).Contents (Elt F)) :
    (⟨S8192x128, .f32⟩ : BufTy).Contents (Elt F) :=
  Host.scatterAdd scatter_S8192x128_S262144x1_S262144x128_1_0_0_1
    (broadcastInDim S8192x128 ![] bcast_S_S8192x128 (constant S_ .f32 0x00000000#32))
    (broadcastInDim S262144x1 ![0] bcast_S262144_S262144x1_0 dst)
    (Host.gather gather_S8192x128_S262144x1_S262144x128_1_0_n_n_0_1_1128 q (srcIdx src))

/-- One round: p − agg(p·d)·d. -/
def step (d : (⟨S8192x1, .f32⟩ : BufTy).Contents (Elt F)) (src dst : (⟨S262144, .i32⟩ : BufTy).Contents (Elt F))
    (p : (⟨S8192x128, .f32⟩ : BufTy).Contents (Elt F)) : (⟨S8192x128, .f32⟩ : BufTy).Contents (Elt F) :=
  subf p (mulf (agg src dst (mulf p (dcols d))) (dcols d))

/-- The five-term combination Σ_k c_k · p_k over four rounds from p_0 = h. -/
def glue (c0 c1 c2 c3 c4 h : (⟨S8192x128, .f32⟩ : BufTy).Contents (Elt F)) (src dst : (⟨S262144, .i32⟩ : BufTy).Contents (Elt F)) :
    (⟨S8192x128, .f32⟩ : BufTy).Contents (Elt F) :=
  addf (addf (addf (addf (mulf c0 h)
    (mulf c1 (step (dnorm src) src dst h)))
    (mulf c2 (step (dnorm src) src dst (step (dnorm src) src dst h))))
    (mulf c3 (step (dnorm src) src dst (step (dnorm src) src dst (step (dnorm src) src dst h)))))
    (mulf c4 (step (dnorm src) src dst (step (dnorm src) src dst (step (dnorm src) src dst (step (dnorm src) src dst h)))))

/-- Entry k of a five-entry table, as a scalar repeated over the feature matrix. -/
def coefOf (off : Fin S5.rank → Nat) (hs : S5.Slices off S1) (tbl : (⟨S5, .f32⟩ : BufTy).Contents (Elt F)) :
    (⟨S8192x128, .f32⟩ : BufTy).Contents (Elt F) :=
  broadcastInDim S8192x128 ![] bcast_S_S8192x128 (shapeCast S_ (extractStridedSlice S1 off tbl hs) shapeCasts_S1_S_)

section Kernel
variable (W : Valuation τ sig (Elt F))

/-- The first stretch: the degree normalisation, -/
theorem K_d :
    StableHlo.after (main_part0_ops1 (F := F)) W (Proc.devRef .tc main_v11) = dnorm (W (Proc.devRef .tc main_arg1)) := by
  after_results_simp
  rfl

/-- the first round, -/
theorem K_p1 :
    StableHlo.after (main_part0_ops1 (F := F)) W (Proc.devRef .tc main_v30)
      = step (dnorm (W (Proc.devRef .tc main_arg1))) (W (Proc.devRef .tc main_arg1)) (W (Proc.devRef .tc main_arg2)) (W (Proc.devRef .tc main_v2)) := by
  after_results_simp
  rfl

/-- the first two terms of the sum, -/
theorem K_s1 :
    StableHlo.after (main_part0_ops1 (F := F)) W (Proc.devRef .tc main_v35)
      = addf (mulf (coefOf ![0] slices_S5_S1_0 (W (Proc.devRef .tc main_cst))) (W (Proc.devRef .tc main_v2)))
          (mulf (coefOf ![1] slices_S5_S1_1 (W (Proc.devRef .tc main_cst)))
            (step (dnorm (W (Proc.devRef .tc main_arg1))) (W (Proc.devRef .tc main_arg1)) (W (Proc.devRef .tc main_arg2)) (W (Proc.devRef .tc main_v2)))) := by
  after_results_simp
  rfl

/-- and the second round's aggregate and the repeated column it is about to be scaled by. -/
theorem K_a2 :
    StableHlo.after (main_part0_ops1 (F := F)) W (Proc.devRef .tc main_v47)
      = agg (W (Proc.devRef .tc main_arg1)) (W (Proc.devRef .tc main_arg2))
          (mulf (step (dnorm (W (Proc.devRef .tc main_arg1))) (W (Proc.devRef .tc main_arg1)) (W (Proc.devRef .tc main_arg2)) (W (Proc.devRef .tc main_v2)))
            (dcols (dnorm (W (Proc.devRef .tc main_arg1))))) := by
  after_results_simp
  rfl

theorem K_b2 :
    StableHlo.after (main_part0_ops1 (F := F)) W (Proc.devRef .tc main_v48) = dcols (dnorm (W (Proc.devRef .tc main_arg1))) := by
  after_results_simp
  rfl

/-- The first stretch writes neither the table nor the edge lists. -/
theorem K_cst :
    StableHlo.after (main_part0_ops1 (F := F)) W (Proc.devRef .tc main_cst) = W (Proc.devRef .tc main_cst) := by
  after_results_simp
theorem K_arg1 :
    StableHlo.after (main_part0_ops1 (F := F)) W (Proc.devRef .tc main_arg1) = W (Proc.devRef .tc main_arg1) := by
  after_results_simp
theorem K_arg2 :
    StableHlo.after (main_part0_ops1 (F := F)) W (Proc.devRef .tc main_arg2) = W (Proc.devRef .tc main_arg2) := by
  after_results_simp

/-- The second stretch, from whatever the first left: rounds two (its last two operations), three and four, and the
    last three terms of the sum. -/
def tail (tbl : (⟨S5, .f32⟩ : BufTy).Contents (Elt F)) (d : (⟨S8192x1, .f32⟩ : BufTy).Contents (Elt F))
    (src dst : (⟨S262144, .i32⟩ : BufTy).Contents (Elt F)) (p1 s1 a2 b2 : (⟨S8192x128, .f32⟩ : BufTy).Contents (Elt F)) :
    (⟨S8192x128, .f32⟩ : BufTy).Contents (Elt F) :=
  addf (addf (addf s1 (mulf (coefOf ![2] slices_S5_S1_2 tbl) (subf p1 (mulf a2 b2))))
    (mulf (coefOf ![3] slices_S5_S1_3 tbl) (step d src dst (subf p1 (mulf a2 b2)))))
    (mulf (coefOf ![4] slices_S5_S1_4 tbl) (step d src dst (step d src dst (subf p1 (mulf a2 b2)))))

set_option maxHeartbeats 16000000 in
theorem K_tail :
    StableHlo.after (main_part1_ops0 (F := F)) W (Proc.devRef .tc main_v95)
      = tail (W (Proc.devRef .tc main_cst)) (W (Proc.devRef .tc main_v11)) (W (Proc.devRef .tc main_arg1)) (W (Proc.devRef .tc main_arg2))
          (W (Proc.devRef .tc main_v30)) (W (Proc.devRef .tc main_v35)) (W (Proc.devRef .tc main_v47)) (W (Proc.devRef .tc main_v48)) := by
  after_results_simp
  rfl

/-- The two stretches in order: the sum over the table's five entries. -/
theorem K_glue :
    StableHlo.after (main_part1_ops0 (F := F)) (StableHlo.after (main_part0_ops1 (F := F)) W) (Proc.devRef .tc main_v95)
      = glue (coefOf ![0] slices_S5_S1_0 (W (Proc.devRef .tc main_cst))) (coefOf ![1] slices_S5_S1_1 (W (Proc.devRef .tc main_cst)))
          (coefOf ![2] slices_S5_S1_2 (W (Proc.devRef .tc main_cst))) (coefOf ![3] slices_S5_S1_3 (W (Proc.devRef .tc main_cst)))
          (coefOf ![4] slices_S5_S1_4 (W (Proc.devRef .tc main_cst)))
          (W (Proc.devRef .tc main_v2)) (W (Proc.devRef .tc main_arg1)) (W (Proc.devRef .tc main_arg2)) := by
  rw [K_tail, K_cst, K_d, K_arg1, K_arg2, K_p1, K_s1, K_a2, K_b2]
  rfl

end Kernel

/-- Entry k of the literal table, sliced out, reshaped to a scalar and repeated, is the repeated scalar constant of
    the table's k-th word. -/
theorem coefOf_lit (k : Nat) (hk : k < 5) (hs : S5.Slices ![k] S1) :
    coefOf ![k] hs ((fun i => FloatOps.ofBits .f32 (lit0 (S5.rowMajor i))) : (⟨S5, .f32⟩ : BufTy).Contents (Elt F))
      = broadcastInDim S8192x128 ![] bcast_S_S8192x128 (constant S_ .f32 (lit0 ⟨k, hk⟩)) := by
  unfold coefOf
  congr 1
  funext i
  show FloatOps.ofBits .f32 (lit0 (S5.rowMajor _)) = FloatOps.ofBits .f32 (lit0 ⟨k, hk⟩)
  congr 2
  apply Fin.ext
  rw [Shape.rowMajor_val_one]
  have hj : ∀ j : S1.Idx, (j 0).val = 0 := fun j => by
    have h := (j 0).isLt
    have e : S1.size 0 = 1 := rfl
    omega
  show k + ((Shape.reshapeEquiv shapeCasts_S1_S_ i) 0).val = k
  rw [hj]
  exact Nat.add_zero k

section Reference
open Cert.ReferenceIdeal.ReadP
variable (x0 : (⟨Cert.ReferenceIdeal.S8192x256, .f32⟩ : BufTy).Contents (Elt F))
  (x1 x2 : (⟨Cert.ReferenceIdeal.S262144, .i32⟩ : BufTy).Contents (Elt F))
  (x3 : (⟨Cert.ReferenceIdeal.S256x256, .f32⟩ : BufTy).Contents (Elt F))
  (x4 : (⟨Cert.ReferenceIdeal.S256, .f32⟩ : BufTy).Contents (Elt F))
  (x5 : (⟨Cert.ReferenceIdeal.S256x128, .f32⟩ : BufTy).Contents (Elt F))
  (x6 : (⟨Cert.ReferenceIdeal.S128, .f32⟩ : BufTy).Contents (Elt F))

/-- The reference's degree normalisation is the same function of the source list, -/
theorem R_d : val_main_v8 (F := F) x1 = dnorm x1 := rfl

/-- its four rounds are the same round, each from the one before, -/
theorem R_p1 : val_main_v35 (F := F) x0 x1 x2 x3 x4 x5 x6 = step (dnorm x1) x1 x2 (val_main_v18 (F := F) x0 x3 x4 x5 x6) := rfl
theorem R_p2 : val_main_v53 (F := F) x0 x1 x2 x3 x4 x5 x6 = step (dnorm x1) x1 x2 (val_main_v35 (F := F) x0 x1 x2 x3 x4 x5 x6) := rfl
theorem R_p3 : val_main_v71 (F := F) x0 x1 x2 x3 x4 x5 x6 = step (dnorm x1) x1 x2 (val_main_v53 (F := F) x0 x1 x2 x3 x4 x5 x6) := rfl
theorem R_p4 : val_main_v89 (F := F) x0 x1 x2 x3 x4 x5 x6 = step (dnorm x1) x1 x2 (val_main_v71 (F := F) x0 x1 x2 x3 x4 x5 x6) := rfl

/-- and its sum has the five coefficients as repeated scalar constants. -/
theorem R_sum : val_main_v92 (F := F) x0 x1 x2 x3 x4 x5 x6
    = addf (addf (addf (addf
        (mulf (broadcastInDim S8192x128 ![] bcast_S_S8192x128 (constant S_ .f32 0x40A00000#32)) (val_main_v18 (F := F) x0 x3 x4 x5 x6))
        (mulf (broadcastInDim S8192x128 ![] bcast_S_S8192x128 (constant S_ .f32 0x00000000#32)) (val_main_v35 (F := F) x0 x1 x2 x3 x4 x5 x6)))
        (mulf (broadcastInDim S8192x128 ![] bcast_S_S8192x128 (constant S_ .f32 0x00000000#32)) (val_main_v53 (F := F) x0 x1 x2 x3 x4 x5 x6)))
        (mulf (broadcastInDim S8192x128 ![] bcast_S_S8192x128 (constant S_ .f32 0x00000000#32)) (val_main_v71 (F := F) x0 x1 x2 x3 x4 x5 x6)))
        (mulf (broadcastInDim S8192x128 ![] bcast_S_S8192x128 (constant S_ .f32 0x00000000#32)) (val_main_v89 (F := F) x0 x1 x2 x3 x4 x5 x6)) := rfl

theorem R_glue : val_main_v92 (F := F) x0 x1 x2 x3 x4 x5 x6
    = glue (broadcastInDim S8192x128 ![] bcast_S_S8192x128 (constant S_ .f32 0x40A00000#32))
        (broadcastInDim S8192x128 ![] bcast_S_S8192x128 (constant S_ .f32 0x00000000#32))
        (broadcastInDim S8192x128 ![] bcast_S_S8192x128 (constant S_ .f32 0x00000000#32))
        (broadcastInDim S8192x128 ![] bcast_S_S8192x128 (constant S_ .f32 0x00000000#32))
        (broadcastInDim S8192x128 ![] bcast_S_S8192x128 (constant S_ .f32 0x00000000#32))
        (val_main_v18 (F := F) x0 x3 x4 x5 x6) x1 x2 := by
  rw [R_sum, R_p4, R_p3, R_p2, R_p1]
  rfl

end Reference

/-- The host side between the two kernels, at the ideal values: from an encoder output equal to the reference's, the
    literal table and the same edge lists, the buffer the second kernel reads holds the reference's combination. -/
theorem allh_of_h (Wx : Valuation τ sig (Elt Ideal))
    (hc : Wx (Proc.devRef .tc main_cst) = ((fun i => FloatOps.ofBits (F := Ideal) .f32 (lit0 (S5.rowMajor i))) : (⟨S5, .f32⟩ : BufTy).Contents (Elt Ideal)))
    (a0 : (⟨Cert.ReferenceIdeal.S8192x256, .f32⟩ : BufTy).Contents (Elt Ideal))
    (a1 a2 : (⟨Cert.ReferenceIdeal.S262144, .i32⟩ : BufTy).Contents (Elt Ideal))
    (a3 : (⟨Cert.ReferenceIdeal.S256x256, .f32⟩ : BufTy).Contents (Elt Ideal))
    (a4 : (⟨Cert.ReferenceIdeal.S256, .f32⟩ : BufTy).Contents (Elt Ideal))
    (a5 : (⟨Cert.ReferenceIdeal.S256x128, .f32⟩ : BufTy).Contents (Elt Ideal))
    (a6 : (⟨Cert.ReferenceIdeal.S128, .f32⟩ : BufTy).Contents (Elt Ideal))
    (h1 : Wx (Proc.devRef .tc main_arg1) = a1) (h2 : Wx (Proc.devRef .tc main_arg2) = a2)
    (hh : Wx (Proc.devRef .tc main_v2) = Cert.ReferenceIdeal.ReadP.val_main_v18 (F := Ideal) a0 a3 a4 a5 a6) :
    StableHlo.after (Gen.main_part1_ops0 (F := Ideal)) (StableHlo.after (Gen.main_part0_ops1 (F := Ideal)) Wx) (Proc.devRef .tc main_v95)
      = Cert.ReferenceIdeal.ReadP.val_main_v92 (F := Ideal) a0 a1 a2 a3 a4 a5 a6 := by
  rw [K_glue, hc, h1, h2, hh, coefOf_lit 0 (by decide), coefOf_lit 1 (by decide), coefOf_lit 2 (by decide),
    coefOf_lit 3 (by decide), coefOf_lit 4 (by decide)]
  exact (R_glue a0 a1 a2 a3 a4 a5 a6).symm

end Cert.KernelIdeal.Hand

end
-- ==== Proof.Results.lean ====
/-
  The two results of the idealized kernel program are the reference's, as functions of the argument arrays.
  The encoder region leaves the reference's encoder stage in its output array; the host operations between the
  regions are the reference's own glue (degree normalisation, four rounds of gather / scatter-add, the weighted sum),
  so the array handed to the second region is the reference's `all_h`; the second region reads that array through both
  of its input windows and leaves the product with its own transpose, which is the reference's `recons`.
-/
import proofs.«122711_j214748365383_1_alg».proof.Proof.KI.Args
import proofs.«122711_j214748365383_1_alg».proof.Proof.KI.MlpValue
import proofs.«122711_j214748365383_1_alg».proof.Proof.KI.AatValue
import proofs.«122711_j214748365383_1_alg».proof.Proof.KI.Glue
import proofs.«122711_j214748365383_1_alg».proof.Proof.RefRead

set_option maxRecDepth 16384

noncomputable section

namespace Cert.KernelIdeal.Hand

open Cert.KernelIdeal Cert.KernelIdeal.Gen
open Idealize.ShloMosaic Idealize.ShloMosaic.TcCoe Idealize.SL.Sem
open Cert.ReferenceIdeal.ReadP (val_main_v18 val_main_v92 val_main_v93 val_main_v94)

variable (m : (ℓ : Loc nD τ sig) → Buf (Elt Ideal) ℓ) (ρ : Dev nD → PrngReg)

/-- The reference's `all_h` of the launch contents of the seven arguments. -/
abbrev allH (c : Dev nD) := val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
/-- The reference's `recons` of them. -/
abbrev reconsR (c : Dev nD) := val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The encoder region's output array, at its exit, is the reference's encoder stage. -/
theorem W2_h (c : Dev nD) : W2 m ρ c (Proc.devRef .tc main_v2)
    = val_main_v18 (F := Ideal) (m ((c : Thread nD τ).loc main_arg0)) (m ((c : Thread nD τ).loc main_arg3)) (m ((c : Thread nD τ).loc main_arg4)) (m ((c : Thread nD τ).loc main_arg5)) (m ((c : Thread nD τ).loc main_arg6)) := by
  refine (W2_arr m ρ c 5).trans ?_
  have h0 : V1 m ρ c main_v0 = shapeCast S1x256 (m ((c : Thread nD τ).loc main_arg4)) shapeCasts_S256_S1x256 := v0_after (W0 m ρ c)
  have h1 : V1 m ρ c main_v1 = shapeCast S1x128 (m ((c : Thread nD τ).loc main_arg6)) shapeCasts_S128_S1x128 := v1_after (W0 m ρ c)
  refine (mlp_arr (V1 m ρ) c _ _ h0 h1).trans ?_
  rw [show V1 m ρ c main_arg0 = m ((c : Thread nD τ).loc main_arg0) from W1_arg0 m ρ c,
    show V1 m ρ c main_arg3 = m ((c : Thread nD τ).loc main_arg3) from W1_arg3 m ρ c,
    show V1 m ρ c main_arg5 = m ((c : Thread nD τ).loc main_arg5) from W1_arg5 m ρ c]

/-- The array handed to the second region is the reference's `all_h`. -/
theorem W4_allh (c : Dev nD) : W4 m ρ c (Proc.devRef .tc main_v95) = allH m c :=
  allh_of_h (W2 m ρ c) ((W2_of_ne m ρ c main_cst (by decide)).trans (cst_after (W0 m ρ c))) _ _ _ _ _ _ _
    (W2_arg1 m ρ c) (W2_arg2 m ρ c) (W2_h m ρ c)

/-- It is still there when the program ends: the second region only reads it. -/
theorem W5_allh (c : Dev nD) : W5 m ρ c (Proc.devRef .tc main_v95) = allH m c :=
  (W5_of_ne m ρ c main_v95 (by decide)).trans (W4_allh m ρ c)

/-- The second region's output array is the reference's `recons`. -/
theorem W5_recons (c : Dev nD) : W5 m ρ c (Proc.devRef .tc main_v96) = reconsR m c := by
  refine (W5_out m ρ c).trans ((aat_arr (V4 m ρ) c).trans ?_)
  rw [show V4 m ρ c main_v95 = allH m c from W4_allh m ρ c]
  rfl

end Cert.KernelIdeal.Hand

end
-- ==== Proof.lean ====
/-
  The certificate of `Cert.Claim`: a graph encoder (two matrix products with bias and a clamp at zero, as one pallas_call
  over row blocks), host-side degree normalisation and four rounds of gather / scatter-add Laplacian steps with their
  weighted sum `all_h`, and the self-similarity product `all_h · all_hᵀ` (a second pallas_call over 8 × 8 blocks),
  against the same computation written with host operations only.
  Frames: each kernel program's @main is run segment by segment — host stretch, encoder region, two host stretches,
  self-similarity region — every unscoped buffer's contents named at each boundary; the arguments are never written, so
  they end as launched (the same text serves the word-level program and its idealization: the ideal pass rewrote
  nothing, which is also why `preserves` is `True`). The reference's frame is its run with the results dropped.
  Values, on the extended reals: the encoder's row blocks cover its output array and each holds the reference's encoder
  stage there (a matrix product into a zero accumulator is the plain sum the host's dot_general is; roundings to bf16
  are the identity); the host glue between the regions is the reference's own, operation for operation (the kernel's
  program slices its five coefficients out of a table, the reference writes them as constants: the same five numbers);
  the second region's blocks cover the square output and each holds `Σ_k A[r,k] · A[s,k]`, which is the reference's
  product with the transpose. No law of arithmetic beyond reading both sides at an index is used, so the precondition
  (finite inputs) is never opened.
-/
import proofs.«122711_j214748365383_1_alg».proof.Defs
import proofs.«122711_j214748365383_1_alg».proof.Proof.Gen.Kernel
import proofs.«122711_j214748365383_1_alg».proof.Proof.Gen.KernelIdeal
import proofs.«122711_j214748365383_1_alg».proof.Proof.Gen.ReferenceIdeal
import proofs.«122711_j214748365383_1_alg».proof.Proof.Gen.Pre_finite_inputs
import proofs.«122711_j214748365383_1_alg».proof.Proof.K.Args
import proofs.«122711_j214748365383_1_alg».proof.Proof.KI.Args
import proofs.«122711_j214748365383_1_alg».proof.Proof.Results
import proofs.«122711_j214748365383_1_alg».proof.Proof.RefRead
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The ideal pass rewrote no operation. -/
theorem preserves : Cert.preserves_Kernel_KernelIdeal := trivial

open Cert.KernelIdeal.Hand in
/-- Both programs end with `recons` and `all_h` at the reference's two stages of the argument arrays, which agree. -/
theorem algebraic : Cert.algebraic_KernelIdeal_ReferenceIdeal := by
  intro m ρ m' ρ' _ hagree
  refine ⟨fun c => reconsR m c, fun c => allH m c, ?_, ?_⟩
  · exact (θ_run Cert.KernelIdeal.defs _ _).mono (fun r h c =>
      ⟨(h c _ (mem_uc Cert.KernelIdeal.main_v96 (by decide))).trans (W5_recons m ρ c),
       (h c _ (mem_uc Cert.KernelIdeal.main_v95 (by decide))).trans (W5_allh m ρ c),
       (h c _ (mem_uc Cert.KernelIdeal.main_arg0 (by decide))).trans (W5_arg0 m ρ c),
       (h c _ (mem_uc Cert.KernelIdeal.main_arg1 (by decide))).trans (W5_arg1 m ρ c),
       (h c _ (mem_uc Cert.KernelIdeal.main_arg2 (by decide))).trans (W5_arg2 m ρ c),
       (h c _ (mem_uc Cert.KernelIdeal.main_arg3 (by decide))).trans (W5_arg3 m ρ c),
       (h c _ (mem_uc Cert.KernelIdeal.main_arg4 (by decide))).trans (W5_arg4 m ρ c),
       (h c _ (mem_uc Cert.KernelIdeal.main_arg5 (by decide))).trans (W5_arg5 m ρ c),
       (h c _ (mem_uc Cert.KernelIdeal.main_arg6 (by decide))).trans (W5_arg6 m ρ c)⟩)
      (run_all (F := Ideal) m ρ)
  · refine (θ_run Cert.ReferenceIdeal.defs _ _).mono (fun r h c => ⟨(h c).1.trans ?_, (h c).2.1.trans ?_, (h c).2.2⟩)
      (Cert.ReferenceIdeal.ValueP.run (F := Ideal) m' ρ')
    · rw [Cert.ReferenceIdeal.ReadP.val_main_v94_eq, (hagree c).1, (hagree c).2.1, (hagree c).2.2.1, (hagree c).2.2.2.1,
        (hagree c).2.2.2.2.1, (hagree c).2.2.2.2.2.1, (hagree c).2.2.2.2.2.2]
    · rw [Cert.ReferenceIdeal.ReadP.val_main_v92_eq, (hagree c).1, (hagree c).2.1, (hagree c).2.2.1, (hagree c).2.2.2.1,
        (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
